-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1000000 : Shape := ⟨1, ![1000000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128x128 .f32) (main_arg8 : FVec F S1x128 .f32) (main_arg9 : FVec F S1 .f32) (main_arg10 : FVec F S1x128 .f32) (main_arg11 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S1x128 .f32) (main_arg9 : FVec F S1 .f32) (main_arg10 : FVec F S1x128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S200000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S1x128 .f32) (main_arg9 : FVec F S1 .f32) (main_arg10 : FVec F S1x128 .f32) (main_arg11 : FVec F S1 .f32) (main_arg12 : IVec S1000000 32) (main_arg13 : IVec S1000000 32) (main_arg14 : IVec S1000000 32) (main_arg15 : IVec S1000000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩
abbrev S128x1 : Shape := ⟨2, ![128, 1]⟩
abbrev S1x1 : Shape := ⟨2, ![1, 1]⟩
abbrev S2000x128 : Shape := ⟨2, ![2000, 128]⟩
abbrev S2000x1 : Shape := ⟨2, ![2000, 1]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S200000x128, .f32⟩
  | .hbm, ⟨27, _⟩ => ⟨S1000000x1, .i32⟩
  | .hbm, ⟨28, _⟩ => ⟨S200000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S200000, .f32⟩
  | .hbm, ⟨33, _⟩ => ⟨S1000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x128, .f32⟩
  | .hbm, ⟨50, _⟩ => ⟨S_, .f32⟩
  | .hbm, ⟨51, _⟩ => ⟨S50000x128, .f32⟩
  | .hbm, ⟨52, _⟩ => ⟨S1000000x1, .i32⟩
  | .hbm, ⟨53, _⟩ => ⟨S50000x128, .f32⟩
  | .hbm, ⟨54, _⟩ => ⟨S_, .f32⟩
  | .hbm, ⟨55, _⟩ => ⟨S1000000, .f32⟩
  | .hbm, ⟨56, _⟩ => ⟨S_, .f32⟩
  | .hbm, ⟨57, _⟩ => ⟨S50000, .f32⟩
  | .hbm, ⟨58, _⟩ => ⟨S1000000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S128x1, .f32⟩
  | .hbm, ⟨71, _⟩ => ⟨S128x1, .bf16⟩
  | .hbm, ⟨72, _⟩ => ⟨S1x128, .f32⟩
  | .hbm, ⟨73, _⟩ => ⟨S1x1, .f32⟩
  | .hbm, ⟨74, _⟩ => ⟨S200000x128, .bf16⟩
  | .hbm, ⟨75, _⟩ => ⟨S200000x128, .bf16⟩
  | .hbm, ⟨76, _⟩ => ⟨S200000x1, .f32⟩
  | .hbm, ⟨77, _⟩ => ⟨S128x128, .f32⟩
  | .hbm, ⟨78, _⟩ => ⟨S128x128, .bf16⟩
  | .hbm, ⟨79, _⟩ => ⟨S128x128, .f32⟩
  | .hbm, ⟨80, _⟩ => ⟨S128x128, .bf16⟩
  | .hbm, ⟨81, _⟩ => ⟨S128x1, .f32⟩
  | .hbm, ⟨82, _⟩ => ⟨S128x1, .bf16⟩
  | .hbm, ⟨83, _⟩ => ⟨S1x128, .f32⟩
  | .hbm, ⟨84, _⟩ => ⟨S1x1, .f32⟩
  | .hbm, ⟨85, _⟩ => ⟨S50000x128, .bf16⟩
  | .hbm, ⟨86, _⟩ => ⟨S50000x128, .bf16⟩
  | .hbm, ⟨87, _⟩ => ⟨S50000x1, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S128x1, .bf16⟩
  | .local _ .vmem, ⟨8, _⟩ => ⟨S1x1, .f32⟩
  | .local _ .vmem, ⟨9, _⟩ => ⟨S2000x1, .f32⟩
  | .local _ .vmem, ⟨10, _⟩ => ⟨S2000x1, .f32⟩
  | .local _ .vmem, ⟨11, _⟩ => ⟨S2000x128, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S128x1, .bf16⟩
  | .local _ .vmem, ⟨19, _⟩ => ⟨S1x1, .f32⟩
  | .local _ .vmem, ⟨20, _⟩ => ⟨S2000x1, .f32⟩
  | .local _ .vmem, ⟨21, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  transposes_S1x128_S128x1_1_0 : S1x128.Transposes [1, 0] S128x1
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .bf16 = 32 ∨ (Rect.block (s := S200000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .bf16 = 32 ∨ (Rect.block (s := S200000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S200000x1.size a
  hwx0_7 : ∀ i : grid0.Coords, EltTy.bits .f32 = 32 ∨ (Rect.block (s := S200000x1) S2000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .bf16 = 32 ∨ (Rect.block (s := S128x1) S128x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S50000x1.size a
  hwx1_7 : ∀ i : grid1.Coords, EltTy.bits .f32 = 32 ∨ (Rect.block (s := S50000x1) S2000x1.size (cc1_transform_7 i) (hinb1_7 i)).WholeWords (EltTy.packing .f32)

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v46) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v57) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩
abbrev S128x1 : Shape := ⟨2, ![128, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S200000x128, .f32⟩
  | .hbm, ⟨27, _⟩ => ⟨S1000000x1, .i32⟩
  | .hbm, ⟨28, _⟩ => ⟨S200000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S200000, .f32⟩
  | .hbm, ⟨33, _⟩ => ⟨S1000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S128x128, .f32⟩
  | .hbm, ⟨42, _⟩ => ⟨S200000x128, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S128x128, .f32⟩
  | .hbm, ⟨47, _⟩ => ⟨S200000x128, .f32⟩
  | .hbm, ⟨48, _⟩ => ⟨S200000x128, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x128, .f32⟩
  | .hbm, ⟨58, _⟩ => ⟨S_, .f32⟩
  | .hbm, ⟨59, _⟩ => ⟨S50000x128, .f32⟩
  | .hbm, ⟨60, _⟩ => ⟨S1000000x1, .i32⟩
  | .hbm, ⟨61, _⟩ => ⟨S50000x128, .f32⟩
  | .hbm, ⟨62, _⟩ => ⟨S_, .f32⟩
  | .hbm, ⟨63, _⟩ => ⟨S1000000, .f32⟩
  | .hbm, ⟨64, _⟩ => ⟨S_, .f32⟩
  | .hbm, ⟨65, _⟩ => ⟨S50000, .f32⟩
  | .hbm, ⟨66, _⟩ => ⟨S1000000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S200000x128, .f32⟩
  | .hbm, ⟨84, _⟩ => ⟨S200000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S128x1, .f32⟩
  | .hbm, ⟨89, _⟩ => ⟨S200000x1, .f32⟩
  | .hbm, ⟨90, _⟩ => ⟨S1x1, .f32⟩
  | .hbm, ⟨91, _⟩ => ⟨S200000x1, .f32⟩
  | .hbm, ⟨92, _⟩ => ⟨S200000x1, .f32⟩
  | .hbm, ⟨93, _⟩ => ⟨S_, .f32⟩
  | .hbm, ⟨94, _⟩ => ⟨S_, .f32⟩
  | .hbm, ⟨95, _⟩ => ⟨S200000x1, .f32⟩
  | .hbm, ⟨96, _⟩ => ⟨S200000x1, .i1⟩
  | .hbm, ⟨97, _⟩ => ⟨S_, .f32⟩
  | .hbm, ⟨98, _⟩ => ⟨S200000x1, .f32⟩
  | .hbm, ⟨99, _⟩ => ⟨S200000x1, .f32⟩
  | .hbm, ⟨100, _⟩ => ⟨S200000x1, .f32⟩
  | .hbm, ⟨101, _⟩ => ⟨S128x1, .f32⟩
  | .hbm, ⟨102, _⟩ => ⟨S50000x1, .f32⟩
  | .hbm, ⟨103, _⟩ => ⟨S1x1, .f32⟩
  | .hbm, ⟨104, _⟩ => ⟨S50000x1, .f32⟩
  | .hbm, ⟨105, _⟩ => ⟨S50000x1, .f32⟩
  | .hbm, ⟨106, _⟩ => ⟨S_, .f32⟩
  | .hbm, ⟨107, _⟩ => ⟨S_, .f32⟩
  | .hbm, ⟨108, _⟩ => ⟨S50000x1, .f32⟩
  | .hbm, ⟨109, _⟩ => ⟨S50000x1, .i1⟩
  | .hbm, ⟨110, _⟩ => ⟨S_, .f32⟩
  | .hbm, ⟨111, _⟩ => ⟨S50000x1, .f32⟩
  | .hbm, ⟨112, _⟩ => ⟨S50000x1, .f32⟩
  | .hbm, ⟨113, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call0_cst : Ref sig .tc := ⟨.hbm, 82, rfl⟩
abbrev main_call0_v0 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_11 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v67 : Ref sig .tc := ⟨.hbm, 113, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  dot_S200000x128_S128x1_S200000x1_1_0_0_1_n_n_wf : DotDims.WF S200000x128 S128x1 S200000x1 [1] [0] [0] [1] [] []
  dot_S50000x128_S128x1_S50000x1_1_0_0_1_n_n_wf : DotDims.WF S50000x128 S128x1 S50000x1 [1] [0] [0] [1] [] []

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics both programs compute, over the extended reals, for one destination node of the graph.

  A node has an aggregated neighbour feature `a` (128 numbers: the mean of the messages sent to it) and its own feature
  `x` (128 numbers). With weight matrices `wl`, `wr` (entry `k j`: output unit `k`, input coordinate `j`), a bias `bl`, a
  head vector `wh` and a head bias `bh`:
    hidden k = max (Σ j, a j · wl k j  +  Σ j, x j · wr k j  +  bl k) 0          (a rectified linear unit)
    logit    = Σ k, hidden k · wh k  +  bh
    head     = logit if logit is positive, logit · s otherwise                   (a leaky rectifier with slope s)
  The second program adds the bias before the root term, compares with "at least zero" and multiplies by the slope on the
  left; over the extended reals addition and multiplication are commutative and associative, and at zero both branches
  give zero, so the two readings are one function (`hiddenAlt_eq`, `leakyAlt_eq`, `headAlt_eq`). No finiteness is used.
-/
import Mathlib.Data.EReal.Operations
import Mathlib.Algebra.BigOperators.Group.Finset.Basic
import Idealize.ShloMosaic.Lib.ValueIdx

noncomputable section

namespace SageHead

open Idealize.ShloMosaic Idealize.ShloMosaic.ValueIdx

/-- One hidden unit: the two linear maps added, then the bias, rectified. -/
def hidden (a x : Fin 128 → EReal) (wl wr : Fin 128 → Fin 128 → EReal) (bl : Fin 128 → EReal) (k : Fin 128) : EReal :=
  max ((∑ j, a j * wl k j) + (∑ j, x j * wr k j) + bl k) 0

/-- The same unit with the bias added before the root term. -/
def hiddenAlt (a x : Fin 128 → EReal) (wl wr : Fin 128 → Fin 128 → EReal) (bl : Fin 128 → EReal) (k : Fin 128) : EReal :=
  max ((∑ j, a j * wl k j) + bl k + (∑ j, x j * wr k j)) 0

theorem hiddenAlt_eq (a x : Fin 128 → EReal) (wl wr : Fin 128 → Fin 128 → EReal) (bl : Fin 128 → EReal) (k : Fin 128) :
    hiddenAlt a x wl wr bl k = hidden a x wl wr bl k := by
  unfold hiddenAlt hidden
  rw [add_right_comm]

/-- The leaky rectifier, slope `s`: the strict comparison, the slope on the right. -/
def leaky (s z : EReal) : EReal := if 0 < z then z else z * s

/-- The leaky rectifier with the weak comparison and the slope on the left. -/
def leakyAlt (s z : EReal) : EReal := if 0 ≤ z then z else s * z

theorem leakyAlt_eq (s z : EReal) : leakyAlt s z = leaky s z := by
  unfold leakyAlt leaky
  by_cases h : 0 < z
  · rw [if_pos h.le, if_pos h]
  · rw [if_neg h]
    by_cases h0 : 0 ≤ z
    · have hz : z = 0 := le_antisymm (not_lt.mp h) h0
      rw [if_pos h0, hz, zero_mul]
    · rw [if_neg h0, mul_comm]

/-- The logit: the hidden units against the head vector, plus the head bias. -/
def logit (a x : Fin 128 → EReal) (wl wr : Fin 128 → Fin 128 → EReal) (bl wh : Fin 128 → EReal) (bh : EReal) : EReal :=
  (∑ k, hidden a x wl wr bl k * wh k) + bh

/-- A node's output. -/
def head (s : EReal) (a x : Fin 128 → EReal) (wl wr : Fin 128 → Fin 128 → EReal) (bl wh : Fin 128 → EReal) (bh : EReal) : EReal :=
  leaky s (logit a x wl wr bl wh bh)

/-- The second reading of a node's output. -/
def headAlt (s : EReal) (a x : Fin 128 → EReal) (wl wr : Fin 128 → Fin 128 → EReal) (bl wh : Fin 128 → EReal) (bh : EReal) : EReal :=
  leakyAlt s ((∑ k, hiddenAlt a x wl wr bl k * wh k) + bh)

theorem headAlt_eq (s : EReal) (a x : Fin 128 → EReal) (wl wr : Fin 128 → Fin 128 → EReal) (bl wh : Fin 128 → EReal) (bh : EReal) :
    headAlt s a x wl wr bl wh bh = head s a x wl wr bl wh bh := by
  unfold headAlt head logit
  rw [leakyAlt_eq]
  congr 2
  exact Finset.sum_congr rfl fun k _ => by rw [hiddenAlt_eq]

/-- The output column of `n` nodes: row `p` of the aggregated features and of the nodes' own features, the weights as given
    (`wl`, `wr` : [128, 128] with entry (k, j) = output unit k, input j; `bl` : [128]; `wh` : [1, 128]; `bh` : [1]). -/
def headRows (s : EReal) {n : ℕ} (a x : (⟨2, ![n, 128]⟩ : Shape).Idx → EReal)
    (wl wr : (⟨2, ![128, 128]⟩ : Shape).Idx → EReal) (bl : (⟨1, ![128]⟩ : Shape).Idx → EReal)
    (wh : (⟨2, ![1, 128]⟩ : Shape).Idx → EReal) (bh : (⟨1, ![1]⟩ : Shape).Idx → EReal) :
    (⟨2, ![n, 1]⟩ : Shape).Idx → EReal :=
  fun i => head s (fun j => a (ix2 (show Fin n from i 0) j)) (fun j => x (ix2 (show Fin n from i 0) j))
    (fun k j => wl (ix2 k j)) (fun k j => wr (ix2 k j)) (fun k => bl (ix1 k)) (fun k => wh (ix2 (0 : Fin 1) k)) (bh (ix1 (0 : Fin 1)))

/-- The same column from the arrays as a launch receives them: the weight matrices transposed (`wlT`, `wrT` : entry (j, k) =
    input j, output unit k), the bias as a [1, 128] row, the head vector as a [128, 1] column, the head bias as [1, 1]. -/
def headRowsT (s : EReal) {n : ℕ} (a x : (⟨2, ![n, 128]⟩ : Shape).Idx → EReal)
    (wlT wrT : (⟨2, ![128, 128]⟩ : Shape).Idx → EReal) (bl2 : (⟨2, ![1, 128]⟩ : Shape).Idx → EReal)
    (whT : (⟨2, ![128, 1]⟩ : Shape).Idx → EReal) (bh2 : (⟨2, ![1, 1]⟩ : Shape).Idx → EReal) :
    (⟨2, ![n, 1]⟩ : Shape).Idx → EReal :=
  fun i => head s (fun j => a (ix2 (show Fin n from i 0) j)) (fun j => x (ix2 (show Fin n from i 0) j))
    (fun k j => wlT (ix2 j k)) (fun k j => wrT (ix2 j k)) (fun k => bl2 (ix2 (0 : Fin 1) k)) (fun k => whT (ix2 k (0 : Fin 1)))
    (bh2 (ix2 (0 : Fin 1) (0 : Fin 1)))

/-- The two layouts give one column when the launch's arrays are the given ones transposed and reshaped. -/
theorem headRowsT_eq (s : EReal) {n : ℕ} (a x : (⟨2, ![n, 128]⟩ : Shape).Idx → EReal)
    (wl wr : (⟨2, ![128, 128]⟩ : Shape).Idx → EReal) (bl : (⟨1, ![128]⟩ : Shape).Idx → EReal)
    (wh : (⟨2, ![1, 128]⟩ : Shape).Idx → EReal) (bh : (⟨1, ![1]⟩ : Shape).Idx → EReal)
    (wlT wrT : (⟨2, ![128, 128]⟩ : Shape).Idx → EReal) (bl2 : (⟨2, ![1, 128]⟩ : Shape).Idx → EReal)
    (whT : (⟨2, ![128, 1]⟩ : Shape).Idx → EReal) (bh2 : (⟨2, ![1, 1]⟩ : Shape).Idx → EReal)
    (hwl : ∀ j k : Fin 128, wlT (ix2 j k) = wl (ix2 k j)) (hwr : ∀ j k : Fin 128, wrT (ix2 j k) = wr (ix2 k j))
    (hbl : ∀ k : Fin 128, bl2 (ix2 (0 : Fin 1) k) = bl (ix1 k)) (hwh : ∀ k : Fin 128, whT (ix2 k (0 : Fin 1)) = wh (ix2 (0 : Fin 1) k))
    (hbh : bh2 (ix2 (0 : Fin 1) (0 : Fin 1)) = bh (ix1 (0 : Fin 1))) :
    headRowsT s a x wlT wrT bl2 whT bh2 = headRows s a x wl wr bl wh bh := by
  funext i
  unfold headRowsT headRows
  simp only [hwl, hwr, hbl, hwh, hbh]

end SageHead

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KPayload.lean ====
/-
  What one grid point's body stores, read at a row: for row q of the 2000-row block the stored value is the node output
  `SageHead.head` of row q of the two feature blocks, the two weight blocks read transposed (entry (j, k) of a block is
  the weight from input j to unit k), the bias row, the head column and the head bias. Both matrix products run into a
  zero accumulator, so each is the plain finite sum; the change of format before the second product is the identity on
  the extended reals.
-/
import proofs.«144817_j29154238005713_1_alg».proof.Proof.Gen.KernelIdeal.Skeleton
import proofs.«144817_j29154238005713_1_alg».proof.Proof.Spec
import proofs.«144817_j29154238005713_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The leaky rectifier's slope: the 32-bit pattern both programs carry for one thousandth. -/
abbrev slope : EReal := Ideal.ofBits .f32 0x3A83126F#32

theorem dotHidden_eq : dot_S2000x128_S128x128_S2000x128_1_0_0_1_n_n = DotDims.plain 2000 128 128 := rfl
theorem dotHead_eq : dot_S2000x128_S128x1_S2000x1_1_0_0_1_n_n = DotDims.plain 2000 128 1 := rfl

/-- A hidden unit of row `p`, as the body computes it. -/
theorem hidden_apply (v0 v2 : FVec Ideal S2000x128 .bf16) (v4 v6 : FVec Ideal S128x128 .bf16) (v8 : FVec Ideal S1x128 .f32)
    (p : Fin 2000) (k : Fin 128) :
    maximumf (addf (addf (matmul dot_S2000x128_S128x128_S2000x128_1_0_0_1_n_n none v0 v4 (constant S2000x128 .f32 0x00000000#32))
          (matmul dot_S2000x128_S128x128_S2000x128_1_0_0_1_n_n none v2 v6 (constant S2000x128 .f32 0x00000000#32)))
        (broadcastTo S2000x128 v8 broadcasts_S1x128_S2000x128))
      (broadcast S2000x128 (Scalar.ofBits .f32 0x00000000#32)) (ix2 p k)
    = SageHead.hidden (fun j => v0 (ix2 p j)) (fun j => v2 (ix2 p j)) (fun k j => v4 (ix2 j k)) (fun k j => v6 (ix2 j k))
        (fun k => v8 (ix2 (0 : Fin 1) k)) k := by
  rw [maximumf_apply, addf_apply, addf_apply, broadcast_apply, dotHidden_eq, MatmulPlain.matmul_zero_apply,
    MatmulPlain.matmul_zero_apply, broadcastTo_1b_ab_apply]
  unfold SageHead.hidden
  congr 1
  exact Ideal.ofBits_zero_f32

/-- The logit of row `q` from the rectified hidden block `h`: the second product and the head bias. -/
theorem logit_apply (h : FVec Ideal S2000x128 .f32) (v18 : FVec Ideal S128x1 .bf16) (v20 : FVec Ideal S1x1 .f32) (q : Fin 2000) :
    addf (matmul dot_S2000x128_S128x1_S2000x1_1_0_0_1_n_n none (truncf .bf16 h bitsLt_bf16_f32) v18 (constant S2000x1 .f32 0x00000000#32))
        (broadcastTo S2000x1 v20 broadcasts_S1x1_S2000x1) (ix2 q (0 : Fin 1))
      = (∑ k : Fin 128, h (ix2 q k) * v18 (ix2 k (0 : Fin 1))) + v20 (ix2 (0 : Fin 1) (0 : Fin 1)) := by
  rw [addf_apply, dotHead_eq, MatmulPlain.matmul_zero_apply, broadcastTo_1b_ab_apply]
  rfl

/-- The selection on "greater than zero" between a value and its multiple is the leaky rectifier. -/
theorem select_ogt_zero (z s : EReal) :
    Scalar.select (FloatOps.cmpf (F := Ideal) (φ := .f32) .ogt z (FloatOps.ofBits (F := Ideal) .f32 0x00000000#32)) z (z * s) = SageHead.leaky s z := by
  rw [Ideal.cmpf_def, Ideal.ofBits_def, Ideal.ofBits_zero_f32]
  unfold SageHead.leaky Ideal.cmp Scalar.select
  by_cases h : 0 < z
  · simp [h]
  · simp [h]

theorem pay0_apply (v0 v2 : Vec Ideal S2000x128 .bf16) (v4 v6 : Vec Ideal S128x128 .bf16) (v8 : Vec Ideal S1x128 .f32)
    (v18 : Vec Ideal S128x1 .bf16) (v20 : Vec Ideal S1x1 .f32) (q : Fin 2000) :
    k0_pay1 v0 v2 v4 v6 v8 v18 v20 (ix2 q (0 : Fin 1))
      = SageHead.head slope (fun j => v0 (ix2 q j)) (fun j => v2 (ix2 q j)) (fun k j => v4 (ix2 j k)) (fun k j => v6 (ix2 j k))
          (fun k => v8 (ix2 (0 : Fin 1) k)) (fun k => v18 (ix2 k (0 : Fin 1))) (v20 (ix2 (0 : Fin 1) (0 : Fin 1))) := by
  unfold k0_pay1
  simp only [shapeCast_self]
  rw [select_apply, cmpf_apply, mulf_apply, broadcast_apply, broadcast_apply, logit_apply]
  simp only [hidden_apply]
  exact select_ogt_zero _ _

/-- The second launch's body is the same function of its blocks. -/
theorem pay1_apply (v0 v2 : Vec Ideal S2000x128 .bf16) (v4 v6 : Vec Ideal S128x128 .bf16) (v8 : Vec Ideal S1x128 .f32)
    (v18 : Vec Ideal S128x1 .bf16) (v20 : Vec Ideal S1x1 .f32) (q : Fin 2000) :
    k1_pay1 v0 v2 v4 v6 v8 v18 v20 (ix2 q (0 : Fin 1))
      = SageHead.head slope (fun j => v0 (ix2 q j)) (fun j => v2 (ix2 q j)) (fun k j => v4 (ix2 j k)) (fun k j => v6 (ix2 j k))
          (fun k => v8 (ix2 (0 : Fin 1) k)) (fun k => v18 (ix2 k (0 : Fin 1))) (v20 (ix2 (0 : Fin 1) (0 : Fin 1))) :=
  pay0_apply v0 v2 v4 v6 v8 v18 v20 q

end Cert.KernelIdeal.Payload

end
-- ==== Proof.KRegion0.lean ====
/-
  What launch 0 leaves in its output array, for ANY contents `V` of the buffers when the launch is entered: the column
  `SageHead.headRowsT` of the seven input arrays. Grid point t reads rows 2000·t … 2000·t + 1999 of the two feature
  arrays and the whole of the five small arrays, and writes rows 2000·t … 2000·t + 1999 of the output; the 100 points'
  row blocks tile the 200000 rows, so the array after the launch is that column everywhere.
-/
import proofs.«144817_j29154238005713_1_alg».proof.Proof.Gen.KernelIdeal.Frame
import proofs.«144817_j29154238005713_1_alg».proof.Proof.KPayload
import Idealize.ShloMosaic.Lib.Pipeline.Value
import Idealize.ShloMosaic.PureOps.Ideal

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The column the launch leaves, from the arrays it finds. -/
abbrev out (c : Dev nD) : S200000x1.Idx → EReal :=
  SageHead.headRowsT slope (V c main_v46 : S200000x128.Idx → EReal) (V c main_v47 : S200000x128.Idx → EReal)
    (V c main_v39 : S128x128.Idx → EReal) (V c main_v41 : S128x128.Idx → EReal) (V c main_v44 : S1x128.Idx → EReal)
    (V c main_v43 : S128x1.Idx → EReal) (V c main_v45 : S1x1.Idx → EReal)

/-- The printed index maps over the grid: the two feature windows and the output window move down one block of rows
    per point; the five small windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row q of point t's block of the aggregated features is row 2000·t + q of the array. -/
theorem blk0_apply (c : Dev nD) (t : Fin cfg0.N) (q : Fin 2000) (j : Fin 128) (r : Fin 200000) (hr : r.val = t.val * 2000 + q.val) :
    (iblk0 V c 0 t : S2000x128.Idx → EReal) (ix2 q j) = (V c main_v46 : S200000x128.Idx → EReal) (ix2 r j) := by
  obtain ⟨e, e', -⟩ := idx_facts t
  unfold iblk0
  rw [View.read_apply]
  show V c main_v46 _ = V c main_v46 _
  congr 1
  funext a
  apply Fin.ext
  match a with
  | ⟨0, _⟩ => show win0_0.index t (0 : Fin 2) * 2000 + 1 * q.val = r.val; rw [e, hr]; omega
  | ⟨1, _⟩ => show win0_0.index t (1 : Fin 2) * 128 + 1 * j.val = j.val; rw [e']; omega

/-- Row q of point t's block of the nodes' own features is row 2000·t + q of the array. -/
theorem blk1_apply (c : Dev nD) (t : Fin cfg0.N) (q : Fin 2000) (j : Fin 128) (r : Fin 200000) (hr : r.val = t.val * 2000 + q.val) :
    (iblk0 V c 1 t : S2000x128.Idx → EReal) (ix2 q j) = (V c main_v47 : S200000x128.Idx → EReal) (ix2 r j) := by
  obtain ⟨-, -, e, e', -⟩ := idx_facts t
  unfold iblk0
  rw [View.read_apply]
  show V c main_v47 _ = V c main_v47 _
  congr 1
  funext a
  apply Fin.ext
  match a with
  | ⟨0, _⟩ => show win0_1.index t (0 : Fin 2) * 2000 + 1 * q.val = r.val; rw [e, hr]; omega
  | ⟨1, _⟩ => show win0_1.index t (1 : Fin 2) * 128 + 1 * j.val = j.val; rw [e']; omega

/-- Every point's block of the first weight array is the array. -/
theorem blk2_apply (c : Dev nD) (t : Fin cfg0.N) (j k : Fin 128) :
    (iblk0 V c 2 t : S128x128.Idx → EReal) (ix2 j k) = (V c main_v39 : S128x128.Idx → EReal) (ix2 j k) := by
  obtain ⟨-, -, -, -, e, e', -⟩ := idx_facts t
  unfold iblk0
  rw [View.read_apply]
  show V c main_v39 _ = V c main_v39 _
  congr 1
  funext a
  apply Fin.ext
  match a with
  | ⟨0, _⟩ => show win0_2.index t (0 : Fin 2) * 128 + 1 * j.val = j.val; rw [e]; omega
  | ⟨1, _⟩ => show win0_2.index t (1 : Fin 2) * 128 + 1 * k.val = k.val; rw [e']; omega

/-- Every point's block of the bias row is the row. -/
theorem blk3_apply (c : Dev nD) (t : Fin cfg0.N) (k : Fin 128) :
    (iblk0 V c 3 t : S1x128.Idx → EReal) (ix2 (0 : Fin 1) k) = (V c main_v44 : S1x128.Idx → EReal) (ix2 (0 : Fin 1) k) := by
  obtain ⟨-, -, -, -, -, -, e, e', -⟩ := idx_facts t
  unfold iblk0
  rw [View.read_apply]
  show V c main_v44 _ = V c main_v44 _
  congr 1
  funext a
  apply Fin.ext
  match a with
  | ⟨0, _⟩ => show win0_3.index t (0 : Fin 2) * 1 + 1 * 0 = 0; rw [e]
  | ⟨1, _⟩ => show win0_3.index t (1 : Fin 2) * 128 + 1 * k.val = k.val; rw [e']; omega

/-- Every point's block of the second weight array is the array. -/
theorem blk4_apply (c : Dev nD) (t : Fin cfg0.N) (j k : Fin 128) :
    (iblk0 V c 4 t : S128x128.Idx → EReal) (ix2 j k) = (V c main_v41 : S128x128.Idx → EReal) (ix2 j k) := by
  obtain ⟨-, -, -, -, -, -, -, -, e, e', -⟩ := idx_facts t
  unfold iblk0
  rw [View.read_apply]
  show V c main_v41 _ = V c main_v41 _
  congr 1
  funext a
  apply Fin.ext
  match a with
  | ⟨0, _⟩ => show win0_4.index t (0 : Fin 2) * 128 + 1 * j.val = j.val; rw [e]; omega
  | ⟨1, _⟩ => show win0_4.index t (1 : Fin 2) * 128 + 1 * k.val = k.val; rw [e']; omega

/-- Every point's block of the head column is the column. -/
theorem blk5_apply (c : Dev nD) (t : Fin cfg0.N) (k : Fin 128) :
    (iblk0 V c 5 t : S128x1.Idx → EReal) (ix2 k (0 : Fin 1)) = (V c main_v43 : S128x1.Idx → EReal) (ix2 k (0 : Fin 1)) := by
  obtain ⟨-, -, -, -, -, -, -, -, -, -, e, e', -⟩ := idx_facts t
  unfold iblk0
  rw [View.read_apply]
  show V c main_v43 _ = V c main_v43 _
  congr 1
  funext a
  apply Fin.ext
  match a with
  | ⟨0, _⟩ => show win0_5.index t (0 : Fin 2) * 128 + 1 * k.val = k.val; rw [e]; omega
  | ⟨1, _⟩ => show win0_5.index t (1 : Fin 2) * 1 + 1 * 0 = 0; rw [e']

/-- Every point's block of the head bias is the head bias. -/
theorem blk6_apply (c : Dev nD) (t : Fin cfg0.N) :
    (iblk0 V c 6 t : S1x1.Idx → EReal) (ix2 (0 : Fin 1) (0 : Fin 1)) = (V c main_v45 : S1x1.Idx → EReal) (ix2 (0 : Fin 1) (0 : Fin 1)) := by
  obtain ⟨-, -, -, -, -, -, -, -, -, -, -, -, e, e', -⟩ := idx_facts t
  unfold iblk0
  rw [View.read_apply]
  show V c main_v45 _ = V c main_v45 _
  congr 1
  funext a
  apply Fin.ext
  match a with
  | ⟨0, _⟩ => show win0_6.index t (0 : Fin 2) * 1 + 1 * 0 = 0; rw [e]
  | ⟨1, _⟩ => show win0_6.index t (1 : Fin 2) * 1 + 1 * 0 = 0; rw [e']

/-- What point t writes back is block t of the column. -/
theorem flushed_eq (c : Dev nD) (t : Fin cfg0.N) :
    (dat0 V c).flushed 7 t = ((cfg0.win 7).blk t).view.read (Elt Ideal) (out V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  obtain ⟨-, -, -, -, -, -, -, -, -, -, -, -, -, -, e, e'⟩ := idx_facts t
  funext y
  obtain ⟨q, u, rfl⟩ : ∃ (q : Fin 2000) (u : Fin 1), y = ix2 q u := ⟨y 0, y 1, eq_ix2 y⟩
  obtain rfl : u = 0 := Subsingleton.elim _ _
  show k0_pay1 (iblk0 V c 0 t) (iblk0 V c 1 t) (iblk0 V c 2 t) (iblk0 V c 4 t) (iblk0 V c 3 t) (iblk0 V c 5 t) (iblk0 V c 6 t) (ix2 q (0 : Fin 1))
    = out V c (((cfg0.win 7).blk t).view.emb (ix2 q (0 : Fin 1)))
  refine (pay0_apply (iblk0 V c 0 t) (iblk0 V c 1 t) (iblk0 V c 2 t) (iblk0 V c 4 t) (iblk0 V c 3 t) (iblk0 V c 5 t) (iblk0 V c 6 t) q).trans ?_
  have hr : ((show Fin 200000 from ((cfg0.win 7).blk t).view.emb (ix2 q (0 : Fin 1)) 0) : Fin 200000).val = t.val * 2000 + q.val := by
    show win0_7.index t (0 : Fin 2) * 2000 + 1 * q.val = _
    rw [e]; omega
  unfold out SageHead.headRowsT
  congr 1
  · funext j; exact blk0_apply V c t q j _ hr
  · funext j; exact blk1_apply V c t q j _ hr
  · funext k j; exact blk2_apply V c t j k
  · funext k j; exact blk4_apply V c t j k
  · funext k; exact blk3_apply V c t k
  · funext k; exact blk5_apply V c t k
  · exact blk6_apply V c t

/-- An index of the output array is in point t's block iff each coordinate is in the block's range. -/
theorem mem_blk (t : Fin cfg0.N) (i : S200000x1.Idx) :
    i ∈ ((cfg0.win 7).blk t).view.set ↔ ∀ a : Fin 2, win0_7.index t a * S2000x1.size a ≤ (i a).val ∧ (i a).val < win0_7.index t a * S2000x1.size a + S2000x1.size a := by
  show i ∈ ((View.whole main_v48).slice (win0_7.rect t)).set ↔ _
  rw [View.set_slice_whole, Rect.mem_set_unit]
  exact Iff.rfl

/-- THE ARRAY after the launch is the column: row r lies in the block of point r / 2000. -/
theorem final (c : Dev nD) : (dat0 V c).arrAt 7 cfg0.N = out V c :=
  (dat0 V c).arrAt_eq_of_cover 7 (out V c) (fun t _ => flushed_eq V c t) fun i => by
    have h0 : (i 0).val < 200000 := (i 0).isLt
    have h1 : (i 1).val < 1 := (i 1).isLt
    have hN : cfg0.N = 100 := N_0
    let t : Fin cfg0.N := ⟨(i 0).val / 2000, by rw [hN]; omega⟩
    obtain ⟨-, -, -, -, -, -, -, -, -, -, -, -, -, -, e, e'⟩ := idx_facts t
    refine ⟨t, flush0_7 t, ?_⟩
    rw [mem_blk]
    intro a
    match a with
    | ⟨0, _⟩ =>
      show win0_7.index t (0 : Fin 2) * 2000 ≤ (i 0).val ∧ (i 0).val < win0_7.index t (0 : Fin 2) * 2000 + 2000
      rw [e]; show (i 0).val / 2000 * 2000 ≤ (i 0).val ∧ (i 0).val < (i 0).val / 2000 * 2000 + 2000; omega
    | ⟨1, _⟩ =>
      show win0_7.index t (1 : Fin 2) * 1 ≤ (i 1).val ∧ (i 1).val < win0_7.index t (1 : Fin 2) * 1 + 1
      rw [e']; omega

end Cert.KernelIdeal.Region0

end
-- ==== Proof.KRegion1.lean ====
/-
  What launch 1 leaves in its output array, for ANY contents `V` of the buffers when the launch is entered: the column
  `SageHead.headRowsT` of the seven input arrays. Grid point t reads rows 2000·t … 2000·t + 1999 of the two feature
  arrays and the whole of the five small arrays, and writes rows 2000·t … 2000·t + 1999 of the output; the 25 points'
  row blocks tile the 50000 rows, so the array after the launch is that column everywhere.
-/
import proofs.«144817_j29154238005713_1_alg».proof.Proof.Gen.KernelIdeal.Frame
import proofs.«144817_j29154238005713_1_alg».proof.Proof.KPayload
import Idealize.ShloMosaic.Lib.Pipeline.Value
import Idealize.ShloMosaic.PureOps.Ideal

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The column the launch leaves, from the arrays it finds. -/
abbrev out (c : Dev nD) : S50000x1.Idx → EReal :=
  SageHead.headRowsT slope (V c main_v57 : S50000x128.Idx → EReal) (V c main_v58 : S50000x128.Idx → EReal)
    (V c main_v50 : S128x128.Idx → EReal) (V c main_v52 : S128x128.Idx → EReal) (V c main_v55 : S1x128.Idx → EReal)
    (V c main_v54 : S128x1.Idx → EReal) (V c main_v56 : S1x1.Idx → EReal)

/-- The printed index maps over the grid: the two feature windows and the output window move down one block of rows
    per point; the five small windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row q of point t's block of the aggregated features is row 2000·t + q of the array. -/
theorem blk0_apply (c : Dev nD) (t : Fin cfg1.N) (q : Fin 2000) (j : Fin 128) (r : Fin 50000) (hr : r.val = t.val * 2000 + q.val) :
    (iblk1 V c 0 t : S2000x128.Idx → EReal) (ix2 q j) = (V c main_v57 : S50000x128.Idx → EReal) (ix2 r j) := by
  obtain ⟨e, e', -⟩ := idx_facts t
  unfold iblk1
  rw [View.read_apply]
  show V c main_v57 _ = V c main_v57 _
  congr 1
  funext a
  apply Fin.ext
  match a with
  | ⟨0, _⟩ => show win1_0.index t (0 : Fin 2) * 2000 + 1 * q.val = r.val; rw [e, hr]; omega
  | ⟨1, _⟩ => show win1_0.index t (1 : Fin 2) * 128 + 1 * j.val = j.val; rw [e']; omega

/-- Row q of point t's block of the nodes' own features is row 2000·t + q of the array. -/
theorem blk1_apply (c : Dev nD) (t : Fin cfg1.N) (q : Fin 2000) (j : Fin 128) (r : Fin 50000) (hr : r.val = t.val * 2000 + q.val) :
    (iblk1 V c 1 t : S2000x128.Idx → EReal) (ix2 q j) = (V c main_v58 : S50000x128.Idx → EReal) (ix2 r j) := by
  obtain ⟨-, -, e, e', -⟩ := idx_facts t
  unfold iblk1
  rw [View.read_apply]
  show V c main_v58 _ = V c main_v58 _
  congr 1
  funext a
  apply Fin.ext
  match a with
  | ⟨0, _⟩ => show win1_1.index t (0 : Fin 2) * 2000 + 1 * q.val = r.val; rw [e, hr]; omega
  | ⟨1, _⟩ => show win1_1.index t (1 : Fin 2) * 128 + 1 * j.val = j.val; rw [e']; omega

/-- Every point's block of the first weight array is the array. -/
theorem blk2_apply (c : Dev nD) (t : Fin cfg1.N) (j k : Fin 128) :
    (iblk1 V c 2 t : S128x128.Idx → EReal) (ix2 j k) = (V c main_v50 : S128x128.Idx → EReal) (ix2 j k) := by
  obtain ⟨-, -, -, -, e, e', -⟩ := idx_facts t
  unfold iblk1
  rw [View.read_apply]
  show V c main_v50 _ = V c main_v50 _
  congr 1
  funext a
  apply Fin.ext
  match a with
  | ⟨0, _⟩ => show win1_2.index t (0 : Fin 2) * 128 + 1 * j.val = j.val; rw [e]; omega
  | ⟨1, _⟩ => show win1_2.index t (1 : Fin 2) * 128 + 1 * k.val = k.val; rw [e']; omega

/-- Every point's block of the bias row is the row. -/
theorem blk3_apply (c : Dev nD) (t : Fin cfg1.N) (k : Fin 128) :
    (iblk1 V c 3 t : S1x128.Idx → EReal) (ix2 (0 : Fin 1) k) = (V c main_v55 : S1x128.Idx → EReal) (ix2 (0 : Fin 1) k) := by
  obtain ⟨-, -, -, -, -, -, e, e', -⟩ := idx_facts t
  unfold iblk1
  rw [View.read_apply]
  show V c main_v55 _ = V c main_v55 _
  congr 1
  funext a
  apply Fin.ext
  match a with
  | ⟨0, _⟩ => show win1_3.index t (0 : Fin 2) * 1 + 1 * 0 = 0; rw [e]
  | ⟨1, _⟩ => show win1_3.index t (1 : Fin 2) * 128 + 1 * k.val = k.val; rw [e']; omega

/-- Every point's block of the second weight array is the array. -/
theorem blk4_apply (c : Dev nD) (t : Fin cfg1.N) (j k : Fin 128) :
    (iblk1 V c 4 t : S128x128.Idx → EReal) (ix2 j k) = (V c main_v52 : S128x128.Idx → EReal) (ix2 j k) := by
  obtain ⟨-, -, -, -, -, -, -, -, e, e', -⟩ := idx_facts t
  unfold iblk1
  rw [View.read_apply]
  show V c main_v52 _ = V c main_v52 _
  congr 1
  funext a
  apply Fin.ext
  match a with
  | ⟨0, _⟩ => show win1_4.index t (0 : Fin 2) * 128 + 1 * j.val = j.val; rw [e]; omega
  | ⟨1, _⟩ => show win1_4.index t (1 : Fin 2) * 128 + 1 * k.val = k.val; rw [e']; omega

/-- Every point's block of the head column is the column. -/
theorem blk5_apply (c : Dev nD) (t : Fin cfg1.N) (k : Fin 128) :
    (iblk1 V c 5 t : S128x1.Idx → EReal) (ix2 k (0 : Fin 1)) = (V c main_v54 : S128x1.Idx → EReal) (ix2 k (0 : Fin 1)) := by
  obtain ⟨-, -, -, -, -, -, -, -, -, -, e, e', -⟩ := idx_facts t
  unfold iblk1
  rw [View.read_apply]
  show V c main_v54 _ = V c main_v54 _
  congr 1
  funext a
  apply Fin.ext
  match a with
  | ⟨0, _⟩ => show win1_5.index t (0 : Fin 2) * 128 + 1 * k.val = k.val; rw [e]; omega
  | ⟨1, _⟩ => show win1_5.index t (1 : Fin 2) * 1 + 1 * 0 = 0; rw [e']

/-- Every point's block of the head bias is the head bias. -/
theorem blk6_apply (c : Dev nD) (t : Fin cfg1.N) :
    (iblk1 V c 6 t : S1x1.Idx → EReal) (ix2 (0 : Fin 1) (0 : Fin 1)) = (V c main_v56 : S1x1.Idx → EReal) (ix2 (0 : Fin 1) (0 : Fin 1)) := by
  obtain ⟨-, -, -, -, -, -, -, -, -, -, -, -, e, e', -⟩ := idx_facts t
  unfold iblk1
  rw [View.read_apply]
  show V c main_v56 _ = V c main_v56 _
  congr 1
  funext a
  apply Fin.ext
  match a with
  | ⟨0, _⟩ => show win1_6.index t (0 : Fin 2) * 1 + 1 * 0 = 0; rw [e]
  | ⟨1, _⟩ => show win1_6.index t (1 : Fin 2) * 1 + 1 * 0 = 0; rw [e']

/-- What point t writes back is block t of the column. -/
theorem flushed_eq (c : Dev nD) (t : Fin cfg1.N) :
    (dat1 V c).flushed 7 t = ((cfg1.win 7).blk t).view.read (Elt Ideal) (out V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  obtain ⟨-, -, -, -, -, -, -, -, -, -, -, -, -, -, e, e'⟩ := idx_facts t
  funext y
  obtain ⟨q, u, rfl⟩ : ∃ (q : Fin 2000) (u : Fin 1), y = ix2 q u := ⟨y 0, y 1, eq_ix2 y⟩
  obtain rfl : u = 0 := Subsingleton.elim _ _
  show k1_pay1 (iblk1 V c 0 t) (iblk1 V c 1 t) (iblk1 V c 2 t) (iblk1 V c 4 t) (iblk1 V c 3 t) (iblk1 V c 5 t) (iblk1 V c 6 t) (ix2 q (0 : Fin 1))
    = out V c (((cfg1.win 7).blk t).view.emb (ix2 q (0 : Fin 1)))
  refine (pay1_apply (iblk1 V c 0 t) (iblk1 V c 1 t) (iblk1 V c 2 t) (iblk1 V c 4 t) (iblk1 V c 3 t) (iblk1 V c 5 t) (iblk1 V c 6 t) q).trans ?_
  have hr : ((show Fin 50000 from ((cfg1.win 7).blk t).view.emb (ix2 q (0 : Fin 1)) 0) : Fin 50000).val = t.val * 2000 + q.val := by
    show win1_7.index t (0 : Fin 2) * 2000 + 1 * q.val = _
    rw [e]; omega
  unfold out SageHead.headRowsT
  congr 1
  · funext j; exact blk0_apply V c t q j _ hr
  · funext j; exact blk1_apply V c t q j _ hr
  · funext k j; exact blk2_apply V c t j k
  · funext k j; exact blk4_apply V c t j k
  · funext k; exact blk3_apply V c t k
  · funext k; exact blk5_apply V c t k
  · exact blk6_apply V c t

/-- An index of the output array is in point t's block iff each coordinate is in the block's range. -/
theorem mem_blk (t : Fin cfg1.N) (i : S50000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v59).slice (win1_7.rect t)).set ↔ _
  rw [View.set_slice_whole, Rect.mem_set_unit]
  exact Iff.rfl

/-- THE ARRAY after the launch is the column: row r lies in the block of point r / 2000. -/
theorem final (c : Dev nD) : (dat1 V c).arrAt 7 cfg1.N = out V c :=
  (dat1 V c).arrAt_eq_of_cover 7 (out V c) (fun t _ => flushed_eq V c t) fun i => by
    have h0 : (i 0).val < 50000 := (i 0).isLt
    have h1 : (i 1).val < 1 := (i 1).isLt
    have hN : cfg1.N = 25 := N_1
    let t : Fin cfg1.N := ⟨(i 0).val / 2000, by rw [hN]; omega⟩
    obtain ⟨-, -, -, -, -, -, -, -, -, -, -, -, -, -, e, e'⟩ := idx_facts t
    refine ⟨t, flush1_7 t, ?_⟩
    rw [mem_blk]
    intro a
    match a with
    | ⟨0, _⟩ =>
      show win1_7.index t (0 : Fin 2) * 2000 ≤ (i 0).val ∧ (i 0).val < win1_7.index t (0 : Fin 2) * 2000 + 2000
      rw [e]; show (i 0).val / 2000 * 2000 ≤ (i 0).val ∧ (i 0).val < (i 0).val / 2000 * 2000 + 2000; omega
    | ⟨1, _⟩ =>
      show win1_7.index t (1 : Fin 2) * 1 ≤ (i 1).val ∧ (i 1).val < win1_7.index t (1 : Fin 2) * 1 + 1
      rw [e']; omega

end Cert.KernelIdeal.Region1

end
-- ==== Proof.Mean.lean ====
/-
  The aggregation step both programs share: for an edge list (source node, destination node) the mean, per
  destination node, of the source nodes' feature rows. A negative source index is taken from the end (the length
  added), the rows are gathered edge by edge, summed into their destination's row (a scatter-add into zeros), and
  each destination's sum is divided by its number of incoming edges, counted the same way from ones and raised to
  at least one. It is stated once, as one function of the feature array and the two index vectors, for the two edge
  types (sites to wells: 50000 source rows, 200000 destinations; wells to sites: the other way round); nothing
  in the certificate looks inside it.
-/
import proofs.«144817_j29154238005713_1_alg».proof.Proof.Gen.KernelIdeal

noncomputable section

namespace Cert.KernelIdeal.Mean

open Idealize.ShloMosaic Cert.KernelIdeal Cert.KernelIdeal.Facts₀

variable {F : FTy → Type} [FloatOps F]

/-- The mean of the site features over each well's incoming edges. -/
def meanWells (x : FVec F S50000x128 .f32) (src dst : IVec S1000000 32) : FVec F S200000x128 .f32 :=
  Host.divf
    (Host.scatterAdd scatter_S200000x128_S1000000x1_S1000000x128_1_0_0_1
      (broadcastInDim S200000x128 ![] bcast_S_S200000x128 (constant S_ .f32 0x00000000#32))
      (broadcastInDim S1000000x1 ![0] bcast_S1000000_S1000000x1_0 dst)
      (Host.gather gather_S50000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))
    (broadcastInDim S200000x128 ![0, 1] bcast_S200000x1_S200000x128_0_1
      (broadcastInDim S200000x1 ![0] bcast_S200000_S200000x1_0
        (maximumf
          (Host.scatterAdd scatter_S200000_S1000000x1_S1000000_n_0_0_1
            (broadcastInDim S200000 ![] bcast_S_S200000 (constant S_ .f32 0x00000000#32))
            (broadcastInDim S1000000x1 ![0] bcast_S1000000_S1000000x1_0 dst)
            (broadcastInDim S1000000 ![] bcast_S_S1000000 (constant S_ .f32 0x3F800000#32)))
          (broadcastInDim S200000 ![] bcast_S_S200000 (constant S_ .f32 0x3F800000#32)))))

/-- The mean of the well features over each site's incoming edges. -/
def meanSites (x : FVec F S200000x128 .f32) (src dst : IVec S1000000 32) : FVec F S50000x128 .f32 :=
  Host.divf
    (Host.scatterAdd scatter_S50000x128_S1000000x1_S1000000x128_1_0_0_1
      (broadcastInDim S50000x128 ![] bcast_S_S50000x128 (constant S_ .f32 0x00000000#32))
      (broadcastInDim S1000000x1 ![0] bcast_S1000000_S1000000x1_0 dst)
      (Host.gather gather_S200000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 200000#32))) src))))
    (broadcastInDim S50000x128 ![0, 1] bcast_S50000x1_S50000x128_0_1
      (broadcastInDim S50000x1 ![0] bcast_S50000_S50000x1_0
        (maximumf
          (Host.scatterAdd scatter_S50000_S1000000x1_S1000000_n_0_0_1
            (broadcastInDim S50000 ![] bcast_S_S50000 (constant S_ .f32 0x00000000#32))
            (broadcastInDim S1000000x1 ![0] bcast_S1000000_S1000000x1_0 dst)
            (broadcastInDim S1000000 ![] bcast_S_S1000000 (constant S_ .f32 0x3F800000#32)))
          (broadcastInDim S50000 ![] bcast_S_S50000 (constant S_ .f32 0x3F800000#32)))))

end Cert.KernelIdeal.Mean

end
-- ==== Proof.Outs.lean ====
/-
  The two result columns as functions of the sixteen arguments: for the wells, the node output of every well from the
  mean of its incoming site features and its own features; for the sites, the same with the roles exchanged and the
  second set of weights. Both programs are shown to end with exactly these.
-/
import proofs.«144817_j29154238005713_1_alg».proof.Proof.Mean
import proofs.«144817_j29154238005713_1_alg».proof.Proof.Spec
import Idealize.ShloMosaic.PureOps.Ideal

noncomputable section

namespace Cert.KernelIdeal.Outs

open Idealize.ShloMosaic Cert.KernelIdeal Cert.KernelIdeal.Mean

/-- The leaky rectifier's slope: the 32-bit pattern both programs carry for one thousandth. -/
abbrev slope : EReal := Ideal.ofBits .f32 0x3A83126F#32

/-- The wells' column. -/
def wellsOut (xs : FVec Ideal S50000x128 .f32) (xw : FVec Ideal S200000x128 .f32) (wl wr : FVec Ideal S128x128 .f32)
    (bl : FVec Ideal S128 .f32) (wh : FVec Ideal S1x128 .f32) (bh : FVec Ideal S1 .f32) (src dst : IVec S1000000 32) :
    FVec Ideal S200000x1 .f32 :=
  SageHead.headRows slope (meanWells (F := Ideal) xs src dst) xw wl wr bl wh bh

/-- The sites' column. -/
def sitesOut (xs : FVec Ideal S50000x128 .f32) (xw : FVec Ideal S200000x128 .f32) (wl wr : FVec Ideal S128x128 .f32)
    (bl : FVec Ideal S128 .f32) (wh : FVec Ideal S1x128 .f32) (bh : FVec Ideal S1 .f32) (src dst : IVec S1000000 32) :
    FVec Ideal S50000x1 .f32 :=
  SageHead.headRows slope (meanSites (F := Ideal) xw src dst) xs wl wr bl wh bh

end Cert.KernelIdeal.Outs

end
-- ==== Proof.KValue.lean ====
/-
  The first program's run with its two results named. After the last segment every buffer holds the last boundary's
  valuation; the wells' result array was written by launch 0 and touched by nothing after it, the sites' by launch 1.
  Each launch leaves the column `SageHead.headRowsT` of the arrays it was entered with (the region modules); those arrays
  are the host stretch's transposes, reshapes and format changes of the arguments and of the shared mean, so the column
  is `Outs.wellsOut` / `Outs.sitesOut` of the arguments: a transpose read at (j, k) is the matrix at (k, j), a vector
  reshaped to one row or one column is the vector, and a format change is the identity on the extended reals.
-/
import proofs.«144817_j29154238005713_1_alg».proof.Proof.KRun
import proofs.«144817_j29154238005713_1_alg».proof.Proof.KRegion0
import proofs.«144817_j29154238005713_1_alg».proof.Proof.KRegion1
import proofs.«144817_j29154238005713_1_alg».proof.Proof.Outs
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen Cert.KernelIdeal.Mean Cert.KernelIdeal.Outs

variable (m : (ℓ : Loc nD τ sig) → Buf (Elt Ideal) ℓ) (ρ : Dev nD → PrngReg)

/-! ## Launch 0: the seven arrays it is entered with -/

set_option maxHeartbeats 2000000 in
theorem in0_mean (c : Dev nD) : (V1 m ρ c main_v46 : S200000x128.Idx → EReal) = truncf (F := Ideal) .bf16 (meanWells (F := Ideal) (m ((c : Thread nD τ).loc main_arg0)) (m ((c : Thread nD τ).loc main_arg12)) (m ((c : Thread nD τ).loc main_arg13))) bitsLt_bf16_f32 := by
  show StableHlo.after hostOps0 (W0 m ρ c) (Proc.devRef .tc main_v46) = _
  after_results_simp <;> rfl

set_option maxHeartbeats 2000000 in
theorem in0_own (c : Dev nD) : (V1 m ρ c main_v47 : S200000x128.Idx → EReal) = truncf (F := Ideal) .bf16 (m ((c : Thread nD τ).loc main_arg1)) bitsLt_bf16_f32 := by
  show StableHlo.after hostOps0 (W0 m ρ c) (Proc.devRef .tc main_v47) = _
  after_results_simp <;> rfl

set_option maxHeartbeats 2000000 in
theorem in0_wl (c : Dev nD) : (V1 m ρ c main_v39 : S128x128.Idx → EReal) = truncf (F := Ideal) .bf16 (transpose S128x128 [1, 0] (m ((c : Thread nD τ).loc main_arg2)) transposes_S128x128_S128x128_1_0) bitsLt_bf16_f32 := by
  show StableHlo.after hostOps0 (W0 m ρ c) (Proc.devRef .tc main_v39) = _
  after_results_simp <;> rfl

set_option maxHeartbeats 2000000 in
theorem in0_wr (c : Dev nD) : (V1 m ρ c main_v41 : S128x128.Idx → EReal) = truncf (F := Ideal) .bf16 (transpose S128x128 [1, 0] (m ((c : Thread nD τ).loc main_arg4)) transposes_S128x128_S128x128_1_0) bitsLt_bf16_f32 := by
  show StableHlo.after hostOps0 (W0 m ρ c) (Proc.devRef .tc main_v41) = _
  after_results_simp <;> rfl

set_option maxHeartbeats 2000000 in
theorem in0_wh (c : Dev nD) : (V1 m ρ c main_v43 : S128x1.Idx → EReal) = truncf (F := Ideal) .bf16 (transpose S128x1 [1, 0] (m ((c : Thread nD τ).loc main_arg8)) transposes_S1x128_S128x1_1_0) bitsLt_bf16_f32 := by
  show StableHlo.after hostOps0 (W0 m ρ c) (Proc.devRef .tc main_v43) = _
  after_results_simp <;> rfl

set_option maxHeartbeats 2000000 in
theorem in0_bl (c : Dev nD) : (V1 m ρ c main_v44 : S1x128.Idx → EReal) = shapeCast S1x128 ((m ((c : Thread nD τ).loc main_arg3)) : S128.Idx → EReal) shapeCasts_S128_S1x128 := by
  show StableHlo.after hostOps0 (W0 m ρ c) (Proc.devRef .tc main_v44) = _
  after_results
  rfl

set_option maxHeartbeats 2000000 in
theorem in0_bh (c : Dev nD) : (V1 m ρ c main_v45 : S1x1.Idx → EReal) = shapeCast S1x1 ((m ((c : Thread nD τ).loc main_arg9)) : S1.Idx → EReal) shapeCasts_S1_S1x1 := by
  show StableHlo.after hostOps0 (W0 m ρ c) (Proc.devRef .tc main_v45) = _
  after_results
  rfl

/-- The launch's layout of the column, from arrays that are the given ones entry by entry. -/
theorem headRowsT_of {n : ℕ} (a' x' a x : (⟨2, ![n, 128]⟩ : Shape).Idx → EReal)
    (wl wr : (⟨2, ![128, 128]⟩ : Shape).Idx → EReal) (bl : (⟨1, ![128]⟩ : Shape).Idx → EReal)
    (wh : (⟨2, ![1, 128]⟩ : Shape).Idx → EReal) (bh : (⟨1, ![1]⟩ : Shape).Idx → EReal)
    (wlT wrT : (⟨2, ![128, 128]⟩ : Shape).Idx → EReal) (bl2 : (⟨2, ![1, 128]⟩ : Shape).Idx → EReal)
    (whT : (⟨2, ![128, 1]⟩ : Shape).Idx → EReal) (bh2 : (⟨2, ![1, 1]⟩ : Shape).Idx → EReal)
    (ha : a' = a) (hx : x' = x)
    (hwl : ∀ j k : Fin 128, wlT (ix2 j k) = wl (ix2 k j)) (hwr : ∀ j k : Fin 128, wrT (ix2 j k) = wr (ix2 k j))
    (hbl : ∀ k : Fin 128, bl2 (ix2 (0 : Fin 1) k) = bl (ix1 k)) (hwh : ∀ k : Fin 128, whT (ix2 k (0 : Fin 1)) = wh (ix2 (0 : Fin 1) k))
    (hbh : bh2 (ix2 (0 : Fin 1) (0 : Fin 1)) = bh (ix1 (0 : Fin 1))) :
    SageHead.headRowsT slope a' x' wlT wrT bl2 whT bh2 = SageHead.headRows slope a x wl wr bl wh bh := by
  subst ha hx
  exact SageHead.headRowsT_eq slope _ _ wl wr bl wh bh wlT wrT bl2 whT bh2 hwl hwr hbl hwh hbh

/-- A change of float format is the identity on the extended reals. -/
theorem truncf_id {s : Shape} {φ ψ : FTy} (a : FVec Ideal s φ) (h : ψ.bits < φ.bits) :
    (truncf ψ a h : s.Idx → EReal) = (a : s.Idx → EReal) := rfl

/-- Launch 0's column is the wells' column of the arguments. -/
theorem out0_eq (c : Dev nD) : Region0.out (V1 m ρ) c
    = wellsOut (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg8)) (m ((c : Thread nD τ).loc main_arg9)) (m ((c : Thread nD τ).loc main_arg12)) (m ((c : Thread nD τ).loc main_arg13)) :=
  headRowsT_of _ _ _ _ _ _ _ _ _ _ _ _ _ _ ((in0_mean m ρ c).trans (truncf_id _ _)) ((in0_own m ρ c).trans (truncf_id _ _))
    (fun j k => (congrFun ((in0_wl m ρ c).trans (truncf_id _ _)) (ix2 j k)).trans (transpose_ix2_apply _ _ j k))
    (fun j k => (congrFun ((in0_wr m ρ c).trans (truncf_id _ _)) (ix2 j k)).trans (transpose_ix2_apply _ _ j k))
    (fun k => (congrFun (in0_bl m ρ c) (ix2 (0 : Fin 1) k)).trans (shapeCast_a_1a_apply _ _ 0 k))
    (fun k => (congrFun ((in0_wh m ρ c).trans (truncf_id _ _)) (ix2 k (0 : Fin 1))).trans (transpose_ix2_apply _ _ k 0))
    ((congrFun (in0_bh m ρ c) (ix2 (0 : Fin 1) (0 : Fin 1))).trans (shapeCast_a_1a_apply _ _ 0 0))

/-! ## Launch 1: what reaches it through launch 0 and the first host stretch, and the seven arrays it is entered with -/

set_option maxHeartbeats 2000000 in
/-- The sites' mean is computed before launch 0 and is none of its arrays. -/
theorem W2_mean (c : Dev nD) : (W2 m ρ c (Proc.devRef .tc main_v37) : S50000x128.Idx → EReal)
    = meanSites (F := Ideal) (m ((c : Thread nD τ).loc main_arg1)) (m ((c : Thread nD τ).loc main_arg14)) (m ((c : Thread nD τ).loc main_arg15)) := by
  refine (W2_of_ne m ρ c main_v37 (by decide)).trans ?_
  show StableHlo.after hostOps0 (W0 m ρ c) (Proc.devRef .tc main_v37) = _
  after_results_simp <;> rfl

set_option maxHeartbeats 2000000 in
theorem W2_arg0 (c : Dev nD) : (W2 m ρ c (Proc.devRef .tc main_arg0) : S50000x128.Idx → EReal) = (m ((c : Thread nD τ).loc main_arg0)) := by
  refine (W2_of_ne m ρ c main_arg0 (by decide)).trans ?_
  show StableHlo.after hostOps0 (W0 m ρ c) (Proc.devRef .tc main_arg0) = _
  after_results_simp <;> rfl

set_option maxHeartbeats 2000000 in
theorem W2_arg5 (c : Dev nD) : (W2 m ρ c (Proc.devRef .tc main_arg5) : S128x128.Idx → EReal) = (m ((c : Thread nD τ).loc main_arg5)) := by
  refine (W2_of_ne m ρ c main_arg5 (by decide)).trans ?_
  show StableHlo.after hostOps0 (W0 m ρ c) (Proc.devRef .tc main_arg5) = _
  after_results_simp <;> rfl

set_option maxHeartbeats 2000000 in
theorem W2_arg7 (c : Dev nD) : (W2 m ρ c (Proc.devRef .tc main_arg7) : S128x128.Idx → EReal) = (m ((c : Thread nD τ).loc main_arg7)) := by
  refine (W2_of_ne m ρ c main_arg7 (by decide)).trans ?_
  show StableHlo.after hostOps0 (W0 m ρ c) (Proc.devRef .tc main_arg7) = _
  after_results_simp <;> rfl

set_option maxHeartbeats 2000000 in
theorem W2_arg10 (c : Dev nD) : (W2 m ρ c (Proc.devRef .tc main_arg10) : S1x128.Idx → EReal) = (m ((c : Thread nD τ).loc main_arg10)) := by
  refine (W2_of_ne m ρ c main_arg10 (by decide)).trans ?_
  show StableHlo.after hostOps0 (W0 m ρ c) (Proc.devRef .tc main_arg10) = _
  after_results_simp <;> rfl

set_option maxHeartbeats 2000000 in
theorem W2_arg6 (c : Dev nD) : (W2 m ρ c (Proc.devRef .tc main_arg6) : S128.Idx → EReal) = (m ((c : Thread nD τ).loc main_arg6)) := by
  refine (W2_of_ne m ρ c main_arg6 (by decide)).trans ?_
  show StableHlo.after hostOps0 (W0 m ρ c) (Proc.devRef .tc main_arg6) = _
  after_results_simp <;> rfl

set_option maxHeartbeats 2000000 in
theorem W2_arg11 (c : Dev nD) : (W2 m ρ c (Proc.devRef .tc main_arg11) : S1.Idx → EReal) = (m ((c : Thread nD τ).loc main_arg11)) := by
  refine (W2_of_ne m ρ c main_arg11 (by decide)).trans ?_
  show StableHlo.after hostOps0 (W0 m ρ c) (Proc.devRef .tc main_arg11) = _
  after_results_simp <;> rfl

set_option maxHeartbeats 2000000 in
theorem in1_mean (c : Dev nD) : (V3 m ρ c main_v57 : S50000x128.Idx → EReal) = truncf (F := Ideal) .bf16 (meanSites (F := Ideal) (m ((c : Thread nD τ).loc main_arg1)) (m ((c : Thread nD τ).loc main_arg14)) (m ((c : Thread nD τ).loc main_arg15))) bitsLt_bf16_f32 := by
  have h : StableHlo.after hostOps1 (W2 m ρ c) (Proc.devRef .tc main_v57) = truncf (F := Ideal) .bf16 (W2 m ρ c (Proc.devRef .tc main_v37) : S50000x128.Idx → EReal) bitsLt_bf16_f32 := by
    after_results <;> rfl
  exact h.trans (by rw [W2_mean m ρ c])

set_option maxHeartbeats 2000000 in
theorem in1_own (c : Dev nD) : (V3 m ρ c main_v58 : S50000x128.Idx → EReal) = truncf (F := Ideal) .bf16 (m ((c : Thread nD τ).loc main_arg0)) bitsLt_bf16_f32 := by
  have h : StableHlo.after hostOps1 (W2 m ρ c) (Proc.devRef .tc main_v58) = truncf (F := Ideal) .bf16 (W2 m ρ c (Proc.devRef .tc main_arg0) : S50000x128.Idx → EReal) bitsLt_bf16_f32 := by
    after_results <;> rfl
  exact h.trans (by rw [W2_arg0 m ρ c])

set_option maxHeartbeats 2000000 in
theorem in1_wl (c : Dev nD) : (V3 m ρ c main_v50 : S128x128.Idx → EReal) = truncf (F := Ideal) .bf16 (transpose S128x128 [1, 0] (m ((c : Thread nD τ).loc main_arg5)) transposes_S128x128_S128x128_1_0) bitsLt_bf16_f32 := by
  have h : StableHlo.after hostOps1 (W2 m ρ c) (Proc.devRef .tc main_v50) = truncf (F := Ideal) .bf16 (transpose S128x128 [1, 0] (W2 m ρ c (Proc.devRef .tc main_arg5) : S128x128.Idx → EReal) transposes_S128x128_S128x128_1_0) bitsLt_bf16_f32 := by
    after_results <;> rfl
  exact h.trans (by rw [W2_arg5 m ρ c])

set_option maxHeartbeats 2000000 in
theorem in1_wr (c : Dev nD) : (V3 m ρ c main_v52 : S128x128.Idx → EReal) = truncf (F := Ideal) .bf16 (transpose S128x128 [1, 0] (m ((c : Thread nD τ).loc main_arg7)) transposes_S128x128_S128x128_1_0) bitsLt_bf16_f32 := by
  have h : StableHlo.after hostOps1 (W2 m ρ c) (Proc.devRef .tc main_v52) = truncf (F := Ideal) .bf16 (transpose S128x128 [1, 0] (W2 m ρ c (Proc.devRef .tc main_arg7) : S128x128.Idx → EReal) transposes_S128x128_S128x128_1_0) bitsLt_bf16_f32 := by
    after_results <;> rfl
  exact h.trans (by rw [W2_arg7 m ρ c])

set_option maxHeartbeats 2000000 in
theorem in1_wh (c : Dev nD) : (V3 m ρ c main_v54 : S128x1.Idx → EReal) = truncf (F := Ideal) .bf16 (transpose S128x1 [1, 0] (m ((c : Thread nD τ).loc main_arg10)) transposes_S1x128_S128x1_1_0) bitsLt_bf16_f32 := by
  have h : StableHlo.after hostOps1 (W2 m ρ c) (Proc.devRef .tc main_v54) = truncf (F := Ideal) .bf16 (transpose S128x1 [1, 0] (W2 m ρ c (Proc.devRef .tc main_arg10) : S1x128.Idx → EReal) transposes_S1x128_S128x1_1_0) bitsLt_bf16_f32 := by
    after_results <;> rfl
  exact h.trans (by rw [W2_arg10 m ρ c])

set_option maxHeartbeats 2000000 in
theorem in1_bl (c : Dev nD) : (V3 m ρ c main_v55 : S1x128.Idx → EReal) = shapeCast S1x128 ((m ((c : Thread nD τ).loc main_arg6)) : S128.Idx → EReal) shapeCasts_S128_S1x128 := by
  have h : StableHlo.after hostOps1 (W2 m ρ c) (Proc.devRef .tc main_v55) = shapeCast S1x128 (W2 m ρ c (Proc.devRef .tc main_arg6) : S128.Idx → EReal) shapeCasts_S128_S1x128 := by
    after_results <;> rfl
  exact h.trans (by rw [W2_arg6 m ρ c])

set_option maxHeartbeats 2000000 in
theorem in1_bh (c : Dev nD) : (V3 m ρ c main_v56 : S1x1.Idx → EReal) = shapeCast S1x1 ((m ((c : Thread nD τ).loc main_arg11)) : S1.Idx → EReal) shapeCasts_S1_S1x1 := by
  have h : StableHlo.after hostOps1 (W2 m ρ c) (Proc.devRef .tc main_v56) = shapeCast S1x1 (W2 m ρ c (Proc.devRef .tc main_arg11) : S1.Idx → EReal) shapeCasts_S1_S1x1 := by
    after_results <;> rfl
  exact h.trans (by rw [W2_arg11 m ρ c])

/-- Launch 1's column is the sites' column of the arguments. -/
theorem out1_eq (c : Dev nD) : Region1.out (V3 m ρ) c
    = sitesOut (m ((c : Thread nD τ).loc main_arg0)) (m ((c : Thread nD τ).loc main_arg1)) (m ((c : Thread nD τ).loc main_arg5)) (m ((c : Thread nD τ).loc main_arg7)) (m ((c : Thread nD τ).loc main_arg6)) (m ((c : Thread nD τ).loc main_arg10)) (m ((c : Thread nD τ).loc main_arg11)) (m ((c : Thread nD τ).loc main_arg14)) (m ((c : Thread nD τ).loc main_arg15)) :=
  headRowsT_of _ _ _ _ _ _ _ _ _ _ _ _ _ _ ((in1_mean m ρ c).trans (truncf_id _ _)) ((in1_own m ρ c).trans (truncf_id _ _))
    (fun j k => (congrFun ((in1_wl m ρ c).trans (truncf_id _ _)) (ix2 j k)).trans (transpose_ix2_apply _ _ j k))
    (fun j k => (congrFun ((in1_wr m ρ c).trans (truncf_id _ _)) (ix2 j k)).trans (transpose_ix2_apply _ _ j k))
    (fun k => (congrFun (in1_bl m ρ c) (ix2 (0 : Fin 1) k)).trans (shapeCast_a_1a_apply _ _ 0 k))
    (fun k => (congrFun ((in1_wh m ρ c).trans (truncf_id _ _)) (ix2 k (0 : Fin 1))).trans (transpose_ix2_apply _ _ k 0))
    ((congrFun (in1_bh m ρ c) (ix2 (0 : Fin 1) (0 : Fin 1))).trans (shapeCast_a_1a_apply _ _ 0 0))

/-! ## The two result arrays after the last segment -/

set_option maxHeartbeats 2000000 in
/-- The wells' result: written by launch 0, passed over by the second host stretch and by launch 1. -/
theorem W4_wells (c : Dev nD) : (W4 m ρ c (Proc.devRef .tc main_v48) : S200000x1.Idx → EReal)
    = wellsOut (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg8)) (m ((c : Thread nD τ).loc main_arg9)) (m ((c : Thread nD τ).loc main_arg12)) (m ((c : Thread nD τ).loc main_arg13)) := by
  refine (W4_of_ne m ρ c main_v48 (by decide)).trans ?_
  have h : StableHlo.after hostOps1 (W2 m ρ c) (Proc.devRef .tc main_v48) = W2 m ρ c (Proc.devRef .tc main_v48) := by
    after_results
  refine h.trans ?_
  exact ((W2_arr m ρ c 7).trans (Region0.final (V1 m ρ) c)).trans (out0_eq m ρ c)

/-- The sites' result: written by launch 1. -/
theorem W4_sites (c : Dev nD) : (W4 m ρ c (Proc.devRef .tc main_v59) : S50000x1.Idx → EReal)
    = sitesOut (m ((c : Thread nD τ).loc main_arg0)) (m ((c : Thread nD τ).loc main_arg1)) (m ((c : Thread nD τ).loc main_arg5)) (m ((c : Thread nD τ).loc main_arg7)) (m ((c : Thread nD τ).loc main_arg6)) (m ((c : Thread nD τ).loc main_arg10)) (m ((c : Thread nD τ).loc main_arg11)) (m ((c : Thread nD τ).loc main_arg14)) (m ((c : Thread nD τ).loc main_arg15)) :=
  ((W4_arr m ρ c 7).trans (Region1.final (V3 m ρ) c)).trans (out1_eq m ρ c)

/-! ## The run -/

/-- Every weakly fair execution of the first program terminates without a fault; the wells' result array ends at
    `wellsOut` of the arguments, the sites' at `sitesOut`, and the sixteen arguments end as launched. -/
theorem run : θ_run defs (onTc (τ := τ) (main (F := Ideal))) ⟨m, fun _ => 0, ρ⟩ (fun r => ∀ c : Dev nD,
      r.2.mem ((c : Thread nD τ).loc main_v48) = wellsOut (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg8)) (m ((c : Thread nD τ).loc main_arg9)) (m ((c : Thread nD τ).loc main_arg12)) (m ((c : Thread nD τ).loc main_arg13))
      ∧ r.2.mem ((c : Thread nD τ).loc main_v59) = sitesOut (m ((c : Thread nD τ).loc main_arg0)) (m ((c : Thread nD τ).loc main_arg1)) (m ((c : Thread nD τ).loc main_arg5)) (m ((c : Thread nD τ).loc main_arg7)) (m ((c : Thread nD τ).loc main_arg6)) (m ((c : Thread nD τ).loc main_arg10)) (m ((c : Thread nD τ).loc main_arg11)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run defs _ _).mono (fun r h c =>
    ⟨(h c _ (mem_uc main_v48 (by decide))).trans (W4_wells m ρ c),
     (h c _ (mem_uc main_v59 (by decide))).trans (W4_sites m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c)⟩)
    (Cert.KernelIdeal.RunAll.run_all m ρ)

end Cert.KernelIdeal.Whole

end
-- ==== Proof.RRun.lean ====
/-
  The second program's @main as one straight line of host operations — the four small functions it calls (two rectified
  linear units, two leaky rectifiers, each with its inner selection) written out at their call sites over the calls' own
  buffers, each operation at its plain buffers — and its run: every weakly fair execution terminates, and afterwards every buffer holds what folding the
  operations over the launch contents gives it.
-/
import proofs.«144817_j29154238005713_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 98 operations in order, the calls unfolded. -/
abbrev ops : List (HloOp τ sig (Elt F)) :=
  [
    nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg12 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v2 (broadcastInDim S1000000 ![] bcast_S_S1000000 : (⟨S_, .i32⟩ : BufTy).Contents (Elt F) → (⟨S1000000, .i32⟩ : BufTy).Contents (Elt F)),
    binary main_arg12 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg12 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_cst (constant S_ .f32 0x00000000#32),
    unary main_cst main_v7 (broadcastInDim S200000x128 ![] bcast_S_S200000x128 : (⟨S_, .f32⟩ : BufTy).Contents (Elt F) → (⟨S200000x128, .f32⟩ : BufTy).Contents (Elt F)),
    unary main_arg13 main_v8 (broadcastInDim S1000000x1 ![0] bcast_S1000000_S1000000x1_0 : (⟨S1000000, .i32⟩ : BufTy).Contents (Elt F) → (⟨S1000000x1, .i32⟩ : BufTy).Contents (Elt F)),
    ternary main_v7 main_v8 main_v6 main_v9 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    nullary main_cst_1 (constant S_ .f32 0x3F800000#32),
    unary main_cst_1 main_v10 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v11 (broadcastInDim S200000 ![] bcast_S_S200000 : (⟨S_, .f32⟩ : BufTy).Contents (Elt F) → (⟨S200000, .f32⟩ : BufTy).Contents (Elt F)),
    unary main_arg13 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    nullary main_cst_3 (constant S_ .f32 0x3F800000#32),
    unary main_cst_3 main_v14 (broadcastInDim S200000 ![] bcast_S_S200000 : (⟨S_, .f32⟩ : BufTy).Contents (Elt F) → (⟨S200000, .f32⟩ : BufTy).Contents (Elt F)),
    binary main_v13 main_v14 main_v15 (maximumf : (⟨S200000, .f32⟩ : BufTy).Contents (Elt F) → (⟨S200000, .f32⟩ : BufTy).Contents (Elt F) → (⟨S200000, .f32⟩ : BufTy).Contents (Elt F)),
    unary main_v15 main_v16 (broadcastInDim S200000x1 ![0] bcast_S200000_S200000x1_0 : (⟨S200000, .f32⟩ : BufTy).Contents (Elt F) → (⟨S200000x1, .f32⟩ : BufTy).Contents (Elt F)),
    unary main_v16 main_v17 (broadcastInDim S200000x128 ![0, 1] bcast_S200000x1_S200000x128_0_1 : (⟨S200000x1, .f32⟩ : BufTy).Contents (Elt F) → (⟨S200000x128, .f32⟩ : BufTy).Contents (Elt F)),
    binary main_v9 main_v17 main_v18 (Host.divf : (⟨S200000x128, .f32⟩ : BufTy).Contents (Elt F) → (⟨S200000x128, .f32⟩ : BufTy).Contents (Elt F) → (⟨S200000x128, .f32⟩ : BufTy).Contents (Elt F)),
    unary main_arg2 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg3 main_v21 (broadcastInDim S1x128 ![1] bcast_S128_S1x128_1 : (⟨S128, .f32⟩ : BufTy).Contents (Elt F) → (⟨S1x128, .f32⟩ : BufTy).Contents (Elt F)),
    unary main_v21 main_v22 (broadcastInDim S200000x128 ![0, 1] bcast_S1x128_S200000x128_0_1 : (⟨S1x128, .f32⟩ : BufTy).Contents (Elt F) → (⟨S200000x128, .f32⟩ : BufTy).Contents (Elt F)),
    binary main_v20 main_v22 main_v23 (addf : (⟨S200000x128, .f32⟩ : BufTy).Contents (Elt F) → (⟨S200000x128, .f32⟩ : BufTy).Contents (Elt F) → (⟨S200000x128, .f32⟩ : BufTy).Contents (Elt F)),
    unary main_arg4 main_v24 ((transpose S128x128 [1, 0] · transposes_S128x128_S128x128_1_0) : (⟨S128x128, .f32⟩ : BufTy).Contents (Elt F) → (⟨S128x128, .f32⟩ : BufTy).Contents (Elt F)),
    binary main_arg1 main_v24 main_v25 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v23 main_v25 main_v26 (addf : (⟨S200000x128, .f32⟩ : BufTy).Contents (Elt F) → (⟨S200000x128, .f32⟩ : BufTy).Contents (Elt F) → (⟨S200000x128, .f32⟩ : BufTy).Contents (Elt F)),
    nullary main_c_4 (constantI S_ 32 0#32),
    unary main_c_4 main_v27 (broadcastInDim S1000000 ![] bcast_S_S1000000 : (⟨S_, .i32⟩ : BufTy).Contents (Elt F) → (⟨S1000000, .i32⟩ : BufTy).Contents (Elt F)),
    binary main_arg14 main_v27 main_v28 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 200000#32),
    unary main_c_5 main_v29 (broadcastInDim S1000000 ![] bcast_S_S1000000 : (⟨S_, .i32⟩ : BufTy).Contents (Elt F) → (⟨S1000000, .i32⟩ : BufTy).Contents (Elt F)),
    binary main_arg14 main_v29 main_v30 (addi : (⟨S1000000, .i32⟩ : BufTy).Contents (Elt F) → (⟨S1000000, .i32⟩ : BufTy).Contents (Elt F) → (⟨S1000000, .i32⟩ : BufTy).Contents (Elt F)),
    ternary main_v28 main_v30 main_arg14 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v31 main_v32 (broadcastInDim S1000000x1 ![0] bcast_S1000000_S1000000x1_0 : (⟨S1000000, .i32⟩ : BufTy).Contents (Elt F) → (⟨S1000000x1, .i32⟩ : BufTy).Contents (Elt F)),
    binary main_arg1 main_v32 main_v33 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    nullary main_cst_6 (constant S_ .f32 0x00000000#32),
    unary main_cst_6 main_v34 (broadcastInDim S50000x128 ![] bcast_S_S50000x128 : (⟨S_, .f32⟩ : BufTy).Contents (Elt F) → (⟨S50000x128, .f32⟩ : BufTy).Contents (Elt F)),
    unary main_arg15 main_v35 (broadcastInDim S1000000x1 ![0] bcast_S1000000_S1000000x1_0 : (⟨S1000000, .i32⟩ : BufTy).Contents (Elt F) → (⟨S1000000x1, .i32⟩ : BufTy).Contents (Elt F)),
    ternary main_v34 main_v35 main_v33 main_v36 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_cst_7 (constant S_ .f32 0x3F800000#32),
    unary main_cst_7 main_v37 (broadcastInDim S1000000 ![] bcast_S_S1000000 : (⟨S_, .f32⟩ : BufTy).Contents (Elt F) → (⟨S1000000, .f32⟩ : BufTy).Contents (Elt F)),
    nullary main_cst_8 (constant S_ .f32 0x00000000#32),
    unary main_cst_8 main_v38 (broadcastInDim S50000 ![] bcast_S_S50000 : (⟨S_, .f32⟩ : BufTy).Contents (Elt F) → (⟨S50000, .f32⟩ : BufTy).Contents (Elt F)),
    unary main_arg15 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_9 (constant S_ .f32 0x3F800000#32),
    unary main_cst_9 main_v41 (broadcastInDim S50000 ![] bcast_S_S50000 : (⟨S_, .f32⟩ : BufTy).Contents (Elt F) → (⟨S50000, .f32⟩ : BufTy).Contents (Elt F)),
    binary main_v40 main_v41 main_v42 (maximumf : (⟨S50000, .f32⟩ : BufTy).Contents (Elt F) → (⟨S50000, .f32⟩ : BufTy).Contents (Elt F) → (⟨S50000, .f32⟩ : BufTy).Contents (Elt F)),
    unary main_v42 main_v43 (broadcastInDim S50000x1 ![0] bcast_S50000_S50000x1_0 : (⟨S50000, .f32⟩ : BufTy).Contents (Elt F) → (⟨S50000x1, .f32⟩ : BufTy).Contents (Elt F)),
    unary main_v43 main_v44 (broadcastInDim S50000x128 ![0, 1] bcast_S50000x1_S50000x128_0_1 : (⟨S50000x1, .f32⟩ : BufTy).Contents (Elt F) → (⟨S50000x128, .f32⟩ : BufTy).Contents (Elt F)),
    binary main_v36 main_v44 main_v45 (Host.divf : (⟨S50000x128, .f32⟩ : BufTy).Contents (Elt F) → (⟨S50000x128, .f32⟩ : BufTy).Contents (Elt F) → (⟨S50000x128, .f32⟩ : BufTy).Contents (Elt F)),
    unary main_arg5 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    unary main_arg7 main_v51 ((transpose S128x128 [1, 0] · transposes_S128x128_S128x128_1_0) : (⟨S128x128, .f32⟩ : BufTy).Contents (Elt F) → (⟨S128x128, .f32⟩ : BufTy).Contents (Elt F)),
    binary main_arg0 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32),
    unary main_call0_cst main_call0_v0 (broadcastInDim S200000x128 ![] bcast_S_S200000x128 : (⟨S_, .f32⟩ : BufTy).Contents (Elt F) → (⟨S200000x128, .f32⟩ : BufTy).Contents (Elt F)),
    binary main_v26 main_call0_v0 main_v54 (maximumf : (⟨S200000x128, .f32⟩ : BufTy).Contents (Elt F) → (⟨S200000x128, .f32⟩ : BufTy).Contents (Elt F) → (⟨S200000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v53 main_call1_v0 main_v55 (maximumf : (⟨S50000x128, .f32⟩ : BufTy).Contents (Elt F) → (⟨S50000x128, .f32⟩ : BufTy).Contents (Elt F) → (⟨S50000x128, .f32⟩ : BufTy).Contents (Elt F)),
    unary main_arg8 main_v56 ((transpose S128x1 [1, 0] · transposes_S1x128_S128x1_1_0) : (⟨S1x128, .f32⟩ : BufTy).Contents (Elt F) → (⟨S128x1, .f32⟩ : BufTy).Contents (Elt F)),
    binary main_v54 main_v56 main_v57 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg9 main_v58 (broadcastInDim S1x1 ![1] bcast_S1_S1x1_1 : (⟨S1, .f32⟩ : BufTy).Contents (Elt F) → (⟨S1x1, .f32⟩ : BufTy).Contents (Elt F)),
    unary main_v58 main_v59 (broadcastInDim S200000x1 ![0, 1] bcast_S1x1_S200000x1_0_1 : (⟨S1x1, .f32⟩ : BufTy).Contents (Elt F) → (⟨S200000x1, .f32⟩ : BufTy).Contents (Elt F)),
    binary main_v57 main_v59 main_v60 (addf : (⟨S200000x1, .f32⟩ : BufTy).Contents (Elt F) → (⟨S200000x1, .f32⟩ : BufTy).Contents (Elt F) → (⟨S200000x1, .f32⟩ : BufTy).Contents (Elt F)),
    nullary main_cst_10 (constant S_ .f32 0x3A83126F#32),
    nullary main_call2_cst (constant S_ .f32 0x00000000#32),
    unary main_call2_cst main_call2_v0 (broadcastInDim S200000x1 ![] bcast_S_S200000x1 : (⟨S_, .f32⟩ : BufTy).Contents (Elt F) → (⟨S200000x1, .f32⟩ : BufTy).Contents (Elt F)),
    binary main_v60 main_call2_v0 main_call2_v1 (cmpf .oge : (⟨S200000x1, .f32⟩ : BufTy).Contents (Elt F) → (⟨S200000x1, .f32⟩ : BufTy).Contents (Elt F) → (⟨S200000x1, .i1⟩ : BufTy).Contents (Elt F)),
    unary main_cst_10 main_call2_v2 (id : (⟨S_, .f32⟩ : BufTy).Contents (Elt F) → (⟨S_, .f32⟩ : BufTy).Contents (Elt F)),
    unary main_call2_v2 main_call2_v3 (broadcastInDim S200000x1 ![] bcast_S_S200000x1 : (⟨S_, .f32⟩ : BufTy).Contents (Elt F) → (⟨S200000x1, .f32⟩ : BufTy).Contents (Elt F)),
    binary main_call2_v3 main_v60 main_call2_v4 (mulf : (⟨S200000x1, .f32⟩ : BufTy).Contents (Elt F) → (⟨S200000x1, .f32⟩ : BufTy).Contents (Elt F) → (⟨S200000x1, .f32⟩ : BufTy).Contents (Elt F)),
    ternary main_call2_v1 main_v60 main_call2_v4 main_v61 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_arg10 main_v62 ((transpose S128x1 [1, 0] · transposes_S1x128_S128x1_1_0) : (⟨S1x128, .f32⟩ : BufTy).Contents (Elt F) → (⟨S128x1, .f32⟩ : BufTy).Contents (Elt F)),
    binary main_v55 main_v62 main_v63 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg11 main_v64 (broadcastInDim S1x1 ![1] bcast_S1_S1x1_1 : (⟨S1, .f32⟩ : BufTy).Contents (Elt F) → (⟨S1x1, .f32⟩ : BufTy).Contents (Elt F)),
    unary main_v64 main_v65 (broadcastInDim S50000x1 ![0, 1] bcast_S1x1_S50000x1_0_1 : (⟨S1x1, .f32⟩ : BufTy).Contents (Elt F) → (⟨S50000x1, .f32⟩ : BufTy).Contents (Elt F)),
    binary main_v63 main_v65 main_v66 (addf : (⟨S50000x1, .f32⟩ : BufTy).Contents (Elt F) → (⟨S50000x1, .f32⟩ : BufTy).Contents (Elt F) → (⟨S50000x1, .f32⟩ : BufTy).Contents (Elt F)),
    nullary main_cst_11 (constant S_ .f32 0x3A83126F#32),
    nullary main_call3_cst (constant S_ .f32 0x00000000#32),
    unary main_call3_cst main_call3_v0 (broadcastInDim S50000x1 ![] bcast_S_S50000x1 : (⟨S_, .f32⟩ : BufTy).Contents (Elt F) → (⟨S50000x1, .f32⟩ : BufTy).Contents (Elt F)),
    binary main_v66 main_call3_v0 main_call3_v1 (cmpf .oge : (⟨S50000x1, .f32⟩ : BufTy).Contents (Elt F) → (⟨S50000x1, .f32⟩ : BufTy).Contents (Elt F) → (⟨S50000x1, .i1⟩ : BufTy).Contents (Elt F)),
    unary main_cst_11 main_call3_v2 (id : (⟨S_, .f32⟩ : BufTy).Contents (Elt F) → (⟨S_, .f32⟩ : BufTy).Contents (Elt F)),
    unary main_call3_v2 main_call3_v3 (broadcastInDim S50000x1 ![] bcast_S_S50000x1 : (⟨S_, .f32⟩ : BufTy).Contents (Elt F) → (⟨S50000x1, .f32⟩ : BufTy).Contents (Elt F)),
    binary main_call3_v3 main_v66 main_call3_v4 (mulf : (⟨S50000x1, .f32⟩ : BufTy).Contents (Elt F) → (⟨S50000x1, .f32⟩ : BufTy).Contents (Elt F) → (⟨S50000x1, .f32⟩ : BufTy).Contents (Elt F)),
    ternary main_call3_v1 main_v66 main_call3_v4 main_v67 (select : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)) ]

/-- The first sixty-six operations: the two means and both hidden layers before their rectifiers. -/
abbrev ops0 : List (HloOp τ sig (Elt F)) :=
  [
    nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg12 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v2 (broadcastInDim S1000000 ![] bcast_S_S1000000 : (⟨S_, .i32⟩ : BufTy).Contents (Elt F) → (⟨S1000000, .i32⟩ : BufTy).Contents (Elt F)),
    binary main_arg12 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg12 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_cst (constant S_ .f32 0x00000000#32),
    unary main_cst main_v7 (broadcastInDim S200000x128 ![] bcast_S_S200000x128 : (⟨S_, .f32⟩ : BufTy).Contents (Elt F) → (⟨S200000x128, .f32⟩ : BufTy).Contents (Elt F)),
    unary main_arg13 main_v8 (broadcastInDim S1000000x1 ![0] bcast_S1000000_S1000000x1_0 : (⟨S1000000, .i32⟩ : BufTy).Contents (Elt F) → (⟨S1000000x1, .i32⟩ : BufTy).Contents (Elt F)),
    ternary main_v7 main_v8 main_v6 main_v9 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    nullary main_cst_1 (constant S_ .f32 0x3F800000#32),
    unary main_cst_1 main_v10 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v11 (broadcastInDim S200000 ![] bcast_S_S200000 : (⟨S_, .f32⟩ : BufTy).Contents (Elt F) → (⟨S200000, .f32⟩ : BufTy).Contents (Elt F)),
    unary main_arg13 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    nullary main_cst_3 (constant S_ .f32 0x3F800000#32),
    unary main_cst_3 main_v14 (broadcastInDim S200000 ![] bcast_S_S200000 : (⟨S_, .f32⟩ : BufTy).Contents (Elt F) → (⟨S200000, .f32⟩ : BufTy).Contents (Elt F)),
    binary main_v13 main_v14 main_v15 (maximumf : (⟨S200000, .f32⟩ : BufTy).Contents (Elt F) → (⟨S200000, .f32⟩ : BufTy).Contents (Elt F) → (⟨S200000, .f32⟩ : BufTy).Contents (Elt F)),
    unary main_v15 main_v16 (broadcastInDim S200000x1 ![0] bcast_S200000_S200000x1_0 : (⟨S200000, .f32⟩ : BufTy).Contents (Elt F) → (⟨S200000x1, .f32⟩ : BufTy).Contents (Elt F)),
    unary main_v16 main_v17 (broadcastInDim S200000x128 ![0, 1] bcast_S200000x1_S200000x128_0_1 : (⟨S200000x1, .f32⟩ : BufTy).Contents (Elt F) → (⟨S200000x128, .f32⟩ : BufTy).Contents (Elt F)),
    binary main_v9 main_v17 main_v18 (Host.divf : (⟨S200000x128, .f32⟩ : BufTy).Contents (Elt F) → (⟨S200000x128, .f32⟩ : BufTy).Contents (Elt F) → (⟨S200000x128, .f32⟩ : BufTy).Contents (Elt F)),
    unary main_arg2 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg3 main_v21 (broadcastInDim S1x128 ![1] bcast_S128_S1x128_1 : (⟨S128, .f32⟩ : BufTy).Contents (Elt F) → (⟨S1x128, .f32⟩ : BufTy).Contents (Elt F)),
    unary main_v21 main_v22 (broadcastInDim S200000x128 ![0, 1] bcast_S1x128_S200000x128_0_1 : (⟨S1x128, .f32⟩ : BufTy).Contents (Elt F) → (⟨S200000x128, .f32⟩ : BufTy).Contents (Elt F)),
    binary main_v20 main_v22 main_v23 (addf : (⟨S200000x128, .f32⟩ : BufTy).Contents (Elt F) → (⟨S200000x128, .f32⟩ : BufTy).Contents (Elt F) → (⟨S200000x128, .f32⟩ : BufTy).Contents (Elt F)),
    unary main_arg4 main_v24 ((transpose S128x128 [1, 0] · transposes_S128x128_S128x128_1_0) : (⟨S128x128, .f32⟩ : BufTy).Contents (Elt F) → (⟨S128x128, .f32⟩ : BufTy).Contents (Elt F)),
    binary main_arg1 main_v24 main_v25 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v23 main_v25 main_v26 (addf : (⟨S200000x128, .f32⟩ : BufTy).Contents (Elt F) → (⟨S200000x128, .f32⟩ : BufTy).Contents (Elt F) → (⟨S200000x128, .f32⟩ : BufTy).Contents (Elt F)),
    nullary main_c_4 (constantI S_ 32 0#32),
    unary main_c_4 main_v27 (broadcastInDim S1000000 ![] bcast_S_S1000000 : (⟨S_, .i32⟩ : BufTy).Contents (Elt F) → (⟨S1000000, .i32⟩ : BufTy).Contents (Elt F)),
    binary main_arg14 main_v27 main_v28 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 200000#32),
    unary main_c_5 main_v29 (broadcastInDim S1000000 ![] bcast_S_S1000000 : (⟨S_, .i32⟩ : BufTy).Contents (Elt F) → (⟨S1000000, .i32⟩ : BufTy).Contents (Elt F)),
    binary main_arg14 main_v29 main_v30 (addi : (⟨S1000000, .i32⟩ : BufTy).Contents (Elt F) → (⟨S1000000, .i32⟩ : BufTy).Contents (Elt F) → (⟨S1000000, .i32⟩ : BufTy).Contents (Elt F)),
    ternary main_v28 main_v30 main_arg14 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v31 main_v32 (broadcastInDim S1000000x1 ![0] bcast_S1000000_S1000000x1_0 : (⟨S1000000, .i32⟩ : BufTy).Contents (Elt F) → (⟨S1000000x1, .i32⟩ : BufTy).Contents (Elt F)),
    binary main_arg1 main_v32 main_v33 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    nullary main_cst_6 (constant S_ .f32 0x00000000#32),
    unary main_cst_6 main_v34 (broadcastInDim S50000x128 ![] bcast_S_S50000x128 : (⟨S_, .f32⟩ : BufTy).Contents (Elt F) → (⟨S50000x128, .f32⟩ : BufTy).Contents (Elt F)),
    unary main_arg15 main_v35 (broadcastInDim S1000000x1 ![0] bcast_S1000000_S1000000x1_0 : (⟨S1000000, .i32⟩ : BufTy).Contents (Elt F) → (⟨S1000000x1, .i32⟩ : BufTy).Contents (Elt F)),
    ternary main_v34 main_v35 main_v33 main_v36 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_cst_7 (constant S_ .f32 0x3F800000#32),
    unary main_cst_7 main_v37 (broadcastInDim S1000000 ![] bcast_S_S1000000 : (⟨S_, .f32⟩ : BufTy).Contents (Elt F) → (⟨S1000000, .f32⟩ : BufTy).Contents (Elt F)),
    nullary main_cst_8 (constant S_ .f32 0x00000000#32),
    unary main_cst_8 main_v38 (broadcastInDim S50000 ![] bcast_S_S50000 : (⟨S_, .f32⟩ : BufTy).Contents (Elt F) → (⟨S50000, .f32⟩ : BufTy).Contents (Elt F)),
    unary main_arg15 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_9 (constant S_ .f32 0x3F800000#32),
    unary main_cst_9 main_v41 (broadcastInDim S50000 ![] bcast_S_S50000 : (⟨S_, .f32⟩ : BufTy).Contents (Elt F) → (⟨S50000, .f32⟩ : BufTy).Contents (Elt F)),
    binary main_v40 main_v41 main_v42 (maximumf : (⟨S50000, .f32⟩ : BufTy).Contents (Elt F) → (⟨S50000, .f32⟩ : BufTy).Contents (Elt F) → (⟨S50000, .f32⟩ : BufTy).Contents (Elt F)),
    unary main_v42 main_v43 (broadcastInDim S50000x1 ![0] bcast_S50000_S50000x1_0 : (⟨S50000, .f32⟩ : BufTy).Contents (Elt F) → (⟨S50000x1, .f32⟩ : BufTy).Contents (Elt F)),
    unary main_v43 main_v44 (broadcastInDim S50000x128 ![0, 1] bcast_S50000x1_S50000x128_0_1 : (⟨S50000x1, .f32⟩ : BufTy).Contents (Elt F) → (⟨S50000x128, .f32⟩ : BufTy).Contents (Elt F)),
    binary main_v36 main_v44 main_v45 (Host.divf : (⟨S50000x128, .f32⟩ : BufTy).Contents (Elt F) → (⟨S50000x128, .f32⟩ : BufTy).Contents (Elt F) → (⟨S50000x128, .f32⟩ : BufTy).Contents (Elt F)),
    unary main_arg5 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    unary main_arg7 main_v51 ((transpose S128x128 [1, 0] · transposes_S128x128_S128x128_1_0) : (⟨S128x128, .f32⟩ : BufTy).Contents (Elt F) → (⟨S128x128, .f32⟩ : BufTy).Contents (Elt F)),
    binary main_arg0 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)) ]

/-- The remaining thirty-two: the two rectifiers and the two heads. -/
abbrev ops1 : List (HloOp τ sig (Elt F)) :=
  [
    nullary main_call0_cst (constant S_ .f32 0x00000000#32),
    unary main_call0_cst main_call0_v0 (broadcastInDim S200000x128 ![] bcast_S_S200000x128 : (⟨S_, .f32⟩ : BufTy).Contents (Elt F) → (⟨S200000x128, .f32⟩ : BufTy).Contents (Elt F)),
    binary main_v26 main_call0_v0 main_v54 (maximumf : (⟨S200000x128, .f32⟩ : BufTy).Contents (Elt F) → (⟨S200000x128, .f32⟩ : BufTy).Contents (Elt F) → (⟨S200000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v53 main_call1_v0 main_v55 (maximumf : (⟨S50000x128, .f32⟩ : BufTy).Contents (Elt F) → (⟨S50000x128, .f32⟩ : BufTy).Contents (Elt F) → (⟨S50000x128, .f32⟩ : BufTy).Contents (Elt F)),
    unary main_arg8 main_v56 ((transpose S128x1 [1, 0] · transposes_S1x128_S128x1_1_0) : (⟨S1x128, .f32⟩ : BufTy).Contents (Elt F) → (⟨S128x1, .f32⟩ : BufTy).Contents (Elt F)),
    binary main_v54 main_v56 main_v57 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg9 main_v58 (broadcastInDim S1x1 ![1] bcast_S1_S1x1_1 : (⟨S1, .f32⟩ : BufTy).Contents (Elt F) → (⟨S1x1, .f32⟩ : BufTy).Contents (Elt F)),
    unary main_v58 main_v59 (broadcastInDim S200000x1 ![0, 1] bcast_S1x1_S200000x1_0_1 : (⟨S1x1, .f32⟩ : BufTy).Contents (Elt F) → (⟨S200000x1, .f32⟩ : BufTy).Contents (Elt F)),
    binary main_v57 main_v59 main_v60 (addf : (⟨S200000x1, .f32⟩ : BufTy).Contents (Elt F) → (⟨S200000x1, .f32⟩ : BufTy).Contents (Elt F) → (⟨S200000x1, .f32⟩ : BufTy).Contents (Elt F)),
    nullary main_cst_10 (constant S_ .f32 0x3A83126F#32),
    nullary main_call2_cst (constant S_ .f32 0x00000000#32),
    unary main_call2_cst main_call2_v0 (broadcastInDim S200000x1 ![] bcast_S_S200000x1 : (⟨S_, .f32⟩ : BufTy).Contents (Elt F) → (⟨S200000x1, .f32⟩ : BufTy).Contents (Elt F)),
    binary main_v60 main_call2_v0 main_call2_v1 (cmpf .oge : (⟨S200000x1, .f32⟩ : BufTy).Contents (Elt F) → (⟨S200000x1, .f32⟩ : BufTy).Contents (Elt F) → (⟨S200000x1, .i1⟩ : BufTy).Contents (Elt F)),
    unary main_cst_10 main_call2_v2 (id : (⟨S_, .f32⟩ : BufTy).Contents (Elt F) → (⟨S_, .f32⟩ : BufTy).Contents (Elt F)),
    unary main_call2_v2 main_call2_v3 (broadcastInDim S200000x1 ![] bcast_S_S200000x1 : (⟨S_, .f32⟩ : BufTy).Contents (Elt F) → (⟨S200000x1, .f32⟩ : BufTy).Contents (Elt F)),
    binary main_call2_v3 main_v60 main_call2_v4 (mulf : (⟨S200000x1, .f32⟩ : BufTy).Contents (Elt F) → (⟨S200000x1, .f32⟩ : BufTy).Contents (Elt F) → (⟨S200000x1, .f32⟩ : BufTy).Contents (Elt F)),
    ternary main_call2_v1 main_v60 main_call2_v4 main_v61 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_arg10 main_v62 ((transpose S128x1 [1, 0] · transposes_S1x128_S128x1_1_0) : (⟨S1x128, .f32⟩ : BufTy).Contents (Elt F) → (⟨S128x1, .f32⟩ : BufTy).Contents (Elt F)),
    binary main_v55 main_v62 main_v63 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg11 main_v64 (broadcastInDim S1x1 ![1] bcast_S1_S1x1_1 : (⟨S1, .f32⟩ : BufTy).Contents (Elt F) → (⟨S1x1, .f32⟩ : BufTy).Contents (Elt F)),
    unary main_v64 main_v65 (broadcastInDim S50000x1 ![0, 1] bcast_S1x1_S50000x1_0_1 : (⟨S1x1, .f32⟩ : BufTy).Contents (Elt F) → (⟨S50000x1, .f32⟩ : BufTy).Contents (Elt F)),
    binary main_v63 main_v65 main_v66 (addf : (⟨S50000x1, .f32⟩ : BufTy).Contents (Elt F) → (⟨S50000x1, .f32⟩ : BufTy).Contents (Elt F) → (⟨S50000x1, .f32⟩ : BufTy).Contents (Elt F)),
    nullary main_cst_11 (constant S_ .f32 0x3A83126F#32),
    nullary main_call3_cst (constant S_ .f32 0x00000000#32),
    unary main_call3_cst main_call3_v0 (broadcastInDim S50000x1 ![] bcast_S_S50000x1 : (⟨S_, .f32⟩ : BufTy).Contents (Elt F) → (⟨S50000x1, .f32⟩ : BufTy).Contents (Elt F)),
    binary main_v66 main_call3_v0 main_call3_v1 (cmpf .oge : (⟨S50000x1, .f32⟩ : BufTy).Contents (Elt F) → (⟨S50000x1, .f32⟩ : BufTy).Contents (Elt F) → (⟨S50000x1, .i1⟩ : BufTy).Contents (Elt F)),
    unary main_cst_11 main_call3_v2 (id : (⟨S_, .f32⟩ : BufTy).Contents (Elt F) → (⟨S_, .f32⟩ : BufTy).Contents (Elt F)),
    unary main_call3_v2 main_call3_v3 (broadcastInDim S50000x1 ![] bcast_S_S50000x1 : (⟨S_, .f32⟩ : BufTy).Contents (Elt F) → (⟨S50000x1, .f32⟩ : BufTy).Contents (Elt F)),
    binary main_call3_v3 main_v66 main_call3_v4 (mulf : (⟨S50000x1, .f32⟩ : BufTy).Contents (Elt F) → (⟨S50000x1, .f32⟩ : BufTy).Contents (Elt F) → (⟨S50000x1, .f32⟩ : BufTy).Contents (Elt F)),
    ternary main_call3_v1 main_v66 main_call3_v4 main_v67 (select : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)) ]

/-- The line is its two stretches, one after the other. -/
theorem ops_split : (ops : List (HloOp τ sig (Elt F))) = ops0 ++ ops1 := rfl

/-- Folding a line that is two stretches is folding the second over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8192 in
set_option maxHeartbeats 4000000 in
/-- @main is that line. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The run: each buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibDotPlain.lean ====
/-
  A general lemma. The plain matrix product of an [M, K] array by a [K, N] array as a host program computes it
  (the left operand contracted on its second axis, the right on its first, no batch axes), read at the exact
  instance, is at entry (p, q) the finite sum over the contraction coordinate k of left (p, k) · right (k, q).
  It holds for all sizes and both operands' formats. The operand coordinates of the plain contraction are the
  four coordinate lemmas of the kernel-side product's file.
-/
import proofs.«144817_j29154238005713_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.LibBroadcastRow.lean ====
/-
  General lemmas. A host program broadcasts a scalar to any shape, and a vector of length b first to a [1, b] row and
  then to an [n, b] array (a bias added to every row; with b = 1 a single number added to every entry of a column).
  Read at an index these are the scalar, and the vector's entry at the column coordinate. They hold for all sizes.
-/
import Idealize.ShloMosaic.Lib.ValueIdx
import Idealize.ShloMosaic.Lib.Pipeline.Value

namespace Idealize.ShloMosaic.BroadcastRow

open Idealize.ShloMosaic Idealize.ShloMosaic.ValueIdx

variable {α : Type}

/-- A scalar broadcast to a shape reads as the scalar everywhere. -/
theorem scalar_apply {s : Shape} (h : (⟨0, ![]⟩ : Shape).BroadcastsInDim s (![] : Fin 0 → Fin s.rank))
    (x : (⟨0, ![]⟩ : Shape).Idx → α) (i : s.Idx) : broadcastInDim s ![] h x i = x ix0 :=
  broadcastInDim_apply _ h x i ix0 fun a => a.elim0

/-- A length-b vector laid along the second axis of a [1, b] row reads as the vector. -/
theorem row_apply {b : ℕ} (h : (⟨1, ![b]⟩ : Shape).BroadcastsInDim ⟨2, ![1, b]⟩ (![1] : Fin 1 → Fin 2))
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) fun a => by
    match a with
    | ⟨0, _⟩ =>
      show k.val = if b = 1 then 0 else k.val
      split_ifs with hb
      · have := k.isLt; omega
      · rfl

/-- A [1, b] row repeated down n rows reads as the row at the column coordinate. -/
theorem rows_apply {n b : ℕ} (h : (⟨2, ![1, b]⟩ : Shape).BroadcastsInDim ⟨2, ![n, b]⟩ (![0, 1] : Fin 2 → Fin 2))
    (x : (⟨2, ![1, b]⟩ : Shape).Idx → α) (p : Fin n) (k : Fin b) :
    broadcastInDim ⟨2, ![n, b]⟩ ![0, 1] h x (ix2 p k) = x (ix2 (0 : Fin 1) k) :=
  broadcastInDim_apply _ h x (ix2 p k) (ix2 (0 : Fin 1) k) fun a => by
    match a with
    | ⟨0, _⟩ => rfl
    | ⟨1, _⟩ =>
      show k.val = if b = 1 then 0 else k.val
      split_ifs with hb
      · have := k.isLt; omega
      · rfl

/-- The two together: a bias vector added to every row reads as the vector at the column coordinate. -/
theorem bias_apply {n b : ℕ} (h1 : (⟨1, ![b]⟩ : Shape).BroadcastsInDim ⟨2, ![1, b]⟩ (![1] : Fin 1 → Fin 2))
    (h2 : (⟨2, ![1, b]⟩ : Shape).BroadcastsInDim ⟨2, ![n, b]⟩ (![0, 1] : Fin 2 → Fin 2))
    (x : (⟨1, ![b]⟩ : Shape).Idx → α) (p : Fin n) (k : Fin b) :
    broadcastInDim ⟨2, ![n, b]⟩ ![0, 1] h2 (broadcastInDim ⟨2, ![1, b]⟩ ![1] h1 x) (ix2 p k) = x (ix1 k) := by
  rw [rows_apply, row_apply]

end Idealize.ShloMosaic.BroadcastRow
-- ==== Proof.RWells.lean ====
/-
  The second program's result for the wells, read index by index. Its operations compose, from the mean and the
  arguments: two host matrix products against the transposed weight matrices with the bias row added between them, the
  maximum with zero, a third product against the transposed head vector with the head bias added, and the selection
  "at least zero" between that logit and the slope times it. Read at row p each product is the plain finite sum, each
  broadcast the entry it repeats and each transpose the matrix at the swapped index, so the entry is the second reading
  `SageHead.headAlt` of the node's output, which is the first (`SageHead.headAlt_eq`).
-/
import proofs.«144817_j29154238005713_1_alg».proof.Proof.RRun
import proofs.«144817_j29154238005713_1_alg».proof.Proof.Outs
import proofs.«144817_j29154238005713_1_alg».proof.Proof.LibDotPlain
import proofs.«144817_j29154238005713_1_alg».proof.Proof.LibBroadcastRow
import Idealize.ShloMosaic.Lib.ValueLayout

set_option maxRecDepth 16384

noncomputable section

namespace Cert.ReferenceIdeal.Wells

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.Line

/-- The hidden layer of every node before its rectifier: the neighbour product, the bias, the root product. -/
def preArr (mean xd : FVec Ideal S200000x128 .f32) (wl wr : FVec Ideal S128x128 .f32) (bl : FVec Ideal S128 .f32) :
    FVec Ideal S200000x128 .f32 :=
  addf
    (addf (Host.dotGeneral dot_S200000x128_S128x128_S200000x128_1_0_0_1_n_n none mean (transpose S128x128 [1, 0] wl transposes_S128x128_S128x128_1_0))
      (broadcastInDim S200000x128 ![0, 1] bcast_S1x128_S200000x128_0_1 (broadcastInDim S1x128 ![1] bcast_S128_S1x128_1 bl)))
    (Host.dotGeneral dot_S200000x128_S128x128_S200000x128_1_0_0_1_n_n none xd (transpose S128x128 [1, 0] wr transposes_S128x128_S128x128_1_0))

/-- The rectified hidden layer of every node. -/
def hiddenArr (mean xd : FVec Ideal S200000x128 .f32) (wl wr : FVec Ideal S128x128 .f32) (bl : FVec Ideal S128 .f32) :
    FVec Ideal S200000x128 .f32 :=
  maximumf (preArr mean xd wl wr bl) (broadcastInDim S200000x128 ![] bcast_S_S200000x128 (constant S_ .f32 0x00000000#32))

/-- The logit of every node from its hidden layer. -/
def logitArr (h : FVec Ideal S200000x128 .f32) (wh : FVec Ideal S1x128 .f32) (bh : FVec Ideal S1 .f32) : FVec Ideal S200000x1 .f32 :=
  addf (Host.dotGeneral dot_S200000x128_S128x1_S200000x1_1_0_0_1_n_n none h (transpose S128x1 [1, 0] wh transposes_S1x128_S128x1_1_0))
    (broadcastInDim S200000x1 ![0, 1] bcast_S1x1_S200000x1_0_1 (broadcastInDim S1x1 ![1] bcast_S1_S1x1_1 bh))

/-- The result column as the operations compose it. -/
def line (mean xd : FVec Ideal S200000x128 .f32) (wl wr : FVec Ideal S128x128 .f32) (bl : FVec Ideal S128 .f32)
    (wh : FVec Ideal S1x128 .f32) (bh : FVec Ideal S1 .f32) : FVec Ideal S200000x1 .f32 :=
  select
    (cmpf .oge (logitArr (hiddenArr mean xd wl wr bl) wh bh) (broadcastInDim S200000x1 ![] bcast_S_S200000x1 (constant S_ .f32 0x00000000#32)))
    (logitArr (hiddenArr mean xd wl wr bl) wh bh)
    (mulf (broadcastInDim S200000x1 ![] bcast_S_S200000x1 (id (constant S_ .f32 0x3A83126F#32))) (logitArr (hiddenArr mean xd wl wr bl) wh bh))

theorem dotHidden_eq : dot_S200000x128_S128x128_S200000x128_1_0_0_1_n_n = DotDims.plain 200000 128 128 := rfl
theorem dotHead_eq : dot_S200000x128_S128x1_S200000x1_1_0_0_1_n_n = DotDims.plain 200000 128 1 := rfl

/-- A hidden unit of row p, in the second reading. -/
theorem hiddenArr_apply (mean xd : FVec Ideal S200000x128 .f32) (wl wr : FVec Ideal S128x128 .f32) (bl : FVec Ideal S128 .f32)
    (p : Fin 200000) (k : Fin 128) :
    hiddenArr mean xd wl wr bl (ix2 p k)
      = SageHead.hiddenAlt (fun j => mean (ix2 p j)) (fun j => xd (ix2 p j)) (fun k j => wl (ix2 k j)) (fun k j => wr (ix2 k j))
          (fun k => bl (ix1 k)) k := by
  unfold hiddenArr preArr
  rw [maximumf_apply, addf_apply, addf_apply, dotHidden_eq, DotPlain.dotGeneral_apply, DotPlain.dotGeneral_apply,
    BroadcastRow.bias_apply, BroadcastRow.scalar_apply, constant_apply, Ideal.ofBits_zero_f32]
  have hl : ∀ j : Fin 128, transpose S128x128 [1, 0] wl transposes_S128x128_S128x128_1_0 (ix2 j k) = wl (ix2 k j) :=
    fun j => transpose_ix2_apply wl _ j k
  have hr : ∀ j : Fin 128, transpose S128x128 [1, 0] wr transposes_S128x128_S128x128_1_0 (ix2 j k) = wr (ix2 k j) :=
    fun j => transpose_ix2_apply wr _ j k
  simp only [hl, hr]
  rfl

/-- The logit of row p. -/
theorem logitArr_apply (h : FVec Ideal S200000x128 .f32) (wh : FVec Ideal S1x128 .f32) (bh : FVec Ideal S1 .f32) (p : Fin 200000) :
    logitArr h wh bh (ix2 p (0 : Fin 1)) = (∑ k : Fin 128, h (ix2 p k) * wh (ix2 (0 : Fin 1) k)) + bh (ix1 (0 : Fin 1)) := by
  unfold logitArr
  rw [addf_apply, dotHead_eq, DotPlain.dotGeneral_apply, BroadcastRow.bias_apply]
  have hh : ∀ k : Fin 128, transpose S128x1 [1, 0] wh transposes_S1x128_S128x1_1_0 (ix2 k (0 : Fin 1)) = wh (ix2 (0 : Fin 1) k) :=
    fun k => transpose_ix2_apply wh _ k 0
  simp only [hh]

/-- The selection on "at least zero" between a value and the slope times it is the second reading of the leaky rectifier. -/
theorem select_oge_zero (z s : EReal) :
    Scalar.select (FloatOps.cmpf (F := Ideal) (φ := .f32) .oge z (Ideal.ofBits .f32 0x00000000#32)) z (s * z) = SageHead.leakyAlt s z := by
  rw [Ideal.cmpf_def, Ideal.ofBits_zero_f32]
  unfold SageHead.leakyAlt Ideal.cmp Scalar.select
  by_cases h : 0 ≤ z
  · simp [h]
  · simp [h]

/-- The composed column is the wells' column of the specification. -/
theorem line_eq (mean xd : FVec Ideal S200000x128 .f32) (wl wr : FVec Ideal S128x128 .f32) (bl : FVec Ideal S128 .f32)
    (wh : FVec Ideal S1x128 .f32) (bh : FVec Ideal S1 .f32) :
    line mean xd wl wr bl wh bh = SageHead.headRows Cert.KernelIdeal.Outs.slope mean xd wl wr bl wh bh := by
  funext i
  obtain ⟨p, u, rfl⟩ : ∃ (p : Fin 200000) (u : Fin 1), i = ix2 p u := ⟨i 0, i 1, eq_ix2 i⟩
  obtain rfl : u = 0 := Subsingleton.elim _ _
  unfold line
  rw [select_apply, cmpf_apply, mulf_apply, BroadcastRow.scalar_apply, BroadcastRow.scalar_apply, logitArr_apply]
  simp only [hiddenArr_apply]
  unfold SageHead.headRows
  rw [← SageHead.headAlt_eq]
  exact select_oge_zero _ _

variable (m : (ℓ : Loc nD τ sig) → Buf (Elt Ideal) ℓ)

set_option maxHeartbeats 4000000 in
/-- The fold of the operations at the wells' result buffer is that column of the arguments: the first stretch leaves
    the mean in its buffer and the arguments as launched; the second stretch composes the column from those. -/
theorem after_result (c : Dev nD) :
    after ops (launchContents m c) (main_v61 : DevRef τ sig)
      = line (Cert.KernelIdeal.Mean.meanWells (F := Ideal) (m ((c.tc : Thread nD τ).loc main_arg0)) (m ((c.tc : Thread nD τ).loc main_arg12)) (m ((c.tc : Thread nD τ).loc main_arg13)))
          (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg8)) (m ((c.tc : Thread nD τ).loc main_arg9)) := by
  rw [ops_split, after_append]
  have hpre : after ops0 (launchContents m c) (main_v26 : DevRef τ sig)
      = preArr (Cert.KernelIdeal.Mean.meanWells (F := Ideal) (m ((c.tc : Thread nD τ).loc main_arg0)) (m ((c.tc : Thread nD τ).loc main_arg12)) (m ((c.tc : Thread nD τ).loc main_arg13))) (m ((c.tc : Thread nD τ).loc main_arg1)) (m ((c.tc : Thread nD τ).loc main_arg2)) (m ((c.tc : Thread nD τ).loc main_arg4)) (m ((c.tc : Thread nD τ).loc main_arg3)) := by
    after_results_simp <;> rfl
  have hwh : after ops0 (launchContents m c) (main_arg8 : DevRef τ sig) = (m ((c.tc : Thread nD τ).loc main_arg8)) := by
    after_results_simp <;> rfl
  have hbh : after ops0 (launchContents m c) (main_arg9 : DevRef τ sig) = (m ((c.tc : Thread nD τ).loc main_arg9)) := by
    after_results_simp <;> rfl
  generalize after ops0 (launchContents m c) = W at hpre hwh hbh ⊢
  after_results_simp
  rw [hpre, hwh, hbh]
  rfl

end Cert.ReferenceIdeal.Wells

end
-- ==== Proof.RSites.lean ====
/-
  The second program's result for the sites, read index by index. Its operations compose, from the mean and the
  arguments: two host matrix products against the transposed weight matrices with the bias row added between them, the
  maximum with zero, a third product against the transposed head vector with the head bias added, and the selection
  "at least zero" between that logit and the slope times it. Read at row p each product is the plain finite sum, each
  broadcast the entry it repeats and each transpose the matrix at the swapped index, so the entry is the second reading
  `SageHead.headAlt` of the node's output, which is the first (`SageHead.headAlt_eq`).
-/
import proofs.«144817_j29154238005713_1_alg».proof.Proof.RRun
import proofs.«144817_j29154238005713_1_alg».proof.Proof.Outs
import proofs.«144817_j29154238005713_1_alg».proof.Proof.LibDotPlain
import proofs.«144817_j29154238005713_1_alg».proof.Proof.LibBroadcastRow
import Idealize.ShloMosaic.Lib.ValueLayout

set_option maxRecDepth 16384

noncomputable section

namespace Cert.ReferenceIdeal.Sites

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.Line

/-- The hidden layer of every node before its rectifier: the neighbour product, the bias, the root product. -/
def preArr (mean xd : FVec Ideal S50000x128 .f32) (wl wr : FVec Ideal S128x128 .f32) (bl : FVec Ideal S128 .f32) :
    FVec Ideal S50000x128 .f32 :=
  addf
    (addf (Host.dotGeneral dot_S50000x128_S128x128_S50000x128_1_0_0_1_n_n none mean (transpose S128x128 [1, 0] wl transposes_S128x128_S128x128_1_0))
      (broadcastInDim S50000x128 ![0, 1] bcast_S1x128_S50000x128_0_1 (broadcastInDim S1x128 ![1] bcast_S128_S1x128_1 bl)))
    (Host.dotGeneral dot_S50000x128_S128x128_S50000x128_1_0_0_1_n_n none xd (transpose S128x128 [1, 0] wr transposes_S128x128_S128x128_1_0))

/-- The rectified hidden layer of every node. -/
def hiddenArr (mean xd : FVec Ideal S50000x128 .f32) (wl wr : FVec Ideal S128x128 .f32) (bl : FVec Ideal S128 .f32) :
    FVec Ideal S50000x128 .f32 :=
  maximumf (preArr mean xd wl wr bl) (broadcastInDim S50000x128 ![] bcast_S_S50000x128 (constant S_ .f32 0x00000000#32))

/-- The logit of every node from its hidden layer. -/
def logitArr (h : FVec Ideal S50000x128 .f32) (wh : FVec Ideal S1x128 .f32) (bh : FVec Ideal S1 .f32) : FVec Ideal S50000x1 .f32 :=
  addf (Host.dotGeneral dot_S50000x128_S128x1_S50000x1_1_0_0_1_n_n none h (transpose S128x1 [1, 0] wh transposes_S1x128_S128x1_1_0))
    (broadcastInDim S50000x1 ![0, 1] bcast_S1x1_S50000x1_0_1 (broadcastInDim S1x1 ![1] bcast_S1_S1x1_1 bh))

/-- The result column as the operations compose it. -/
def line (mean xd : FVec Ideal S50000x128 .f32) (wl wr : FVec Ideal S128x128 .f32) (bl : FVec Ideal S128 .f32)
    (wh : FVec Ideal S1x128 .f32) (bh : FVec Ideal S1 .f32) : FVec Ideal S50000x1 .f32 :=
  select
    (cmpf .oge (logitArr (hiddenArr mean xd wl wr bl) wh bh) (broadcastInDim S50000x1 ![] bcast_S_S50000x1 (constant S_ .f32 0x00000000#32)))
    (logitArr (hiddenArr mean xd wl wr bl) wh bh)
    (mulf (broadcastInDim S50000x1 ![] bcast_S_S50000x1 (id (constant S_ .f32 0x3A83126F#32))) (logitArr (hiddenArr mean xd wl wr bl) wh bh))

theorem dotHidden_eq : dot_S50000x128_S128x128_S50000x128_1_0_0_1_n_n = DotDims.plain 50000 128 128 := rfl
theorem dotHead_eq : dot_S50000x128_S128x1_S50000x1_1_0_0_1_n_n = DotDims.plain 50000 128 1 := rfl

/-- A hidden unit of row p, in the second reading. -/
theorem hiddenArr_apply (mean xd : FVec Ideal S50000x128 .f32) (wl wr : FVec Ideal S128x128 .f32) (bl : FVec Ideal S128 .f32)
    (p : Fin 50000) (k : Fin 128) :
    hiddenArr mean xd wl wr bl (ix2 p k)
      = SageHead.hiddenAlt (fun j => mean (ix2 p j)) (fun j => xd (ix2 p j)) (fun k j => wl (ix2 k j)) (fun k j => wr (ix2 k j))
          (fun k => bl (ix1 k)) k := by
  unfold hiddenArr preArr
  rw [maximumf_apply, addf_apply, addf_apply, dotHidden_eq, DotPlain.dotGeneral_apply, DotPlain.dotGeneral_apply,
    BroadcastRow.bias_apply, BroadcastRow.scalar_apply, constant_apply, Ideal.ofBits_zero_f32]
  have hl : ∀ j : Fin 128, transpose S128x128 [1, 0] wl transposes_S128x128_S128x128_1_0 (ix2 j k) = wl (ix2 k j) :=
    fun j => transpose_ix2_apply wl _ j k
  have hr : ∀ j : Fin 128, transpose S128x128 [1, 0] wr transposes_S128x128_S128x128_1_0 (ix2 j k) = wr (ix2 k j) :=
    fun j => transpose_ix2_apply wr _ j k
  simp only [hl, hr]
  rfl

/-- The logit of row p. -/
theorem logitArr_apply (h : FVec Ideal S50000x128 .f32) (wh : FVec Ideal S1x128 .f32) (bh : FVec Ideal S1 .f32) (p : Fin 50000) :
    logitArr h wh bh (ix2 p (0 : Fin 1)) = (∑ k : Fin 128, h (ix2 p k) * wh (ix2 (0 : Fin 1) k)) + bh (ix1 (0 : Fin 1)) := by
  unfold logitArr
  rw [addf_apply, dotHead_eq, DotPlain.dotGeneral_apply, BroadcastRow.bias_apply]
  have hh : ∀ k : Fin 128, transpose S128x1 [1, 0] wh transposes_S1x128_S128x1_1_0 (ix2 k (0 : Fin 1)) = wh (ix2 (0 : Fin 1) k) :=
    fun k => transpose_ix2_apply wh _ k 0
  simp only [hh]

/-- The selection on "at least zero" between a value and the slope times it is the second reading of the leaky rectifier. -/
theorem select_oge_zero (z s : EReal) :
    Scalar.select (FloatOps.cmpf (F := Ideal) (φ := .f32) .oge z (Ideal.ofBits .f32 0x00000000#32)) z (s * z) = SageHead.leakyAlt s z := by
  rw [Ideal.cmpf_def, Ideal.ofBits_zero_f32]
  unfold SageHead.leakyAlt Ideal.cmp Scalar.select
  by_cases h : 0 ≤ z
  · simp [h]
  · simp [h]

/-- The composed column is the sites' column of the specification. -/
theorem line_eq (mean xd : FVec Ideal S50000x128 .f32) (wl wr : FVec Ideal S128x128 .f32) (bl : FVec Ideal S128 .f32)
    (wh : FVec Ideal S1x128 .f32) (bh : FVec Ideal S1 .f32) :
    line mean xd wl wr bl wh bh = SageHead.headRows Cert.KernelIdeal.Outs.slope mean xd wl wr bl wh bh := by
  funext i
  obtain ⟨p, u, rfl⟩ : ∃ (p : Fin 50000) (u : Fin 1), i = ix2 p u := ⟨i 0, i 1, eq_ix2 i⟩
  obtain rfl : u = 0 := Subsingleton.elim _ _
  unfold line
  rw [select_apply, cmpf_apply, mulf_apply, BroadcastRow.scalar_apply, BroadcastRow.scalar_apply, logitArr_apply]
  simp only [hiddenArr_apply]
  unfold SageHead.headRows
  rw [← SageHead.headAlt_eq]
  exact select_oge_zero _ _

variable (m : (ℓ : Loc nD τ sig) → Buf (Elt Ideal) ℓ)

set_option maxHeartbeats 4000000 in
/-- The fold of the operations at the sites' result buffer is that column of the arguments: the first stretch leaves
    the mean in its buffer and the arguments as launched; the second stretch composes the column from those. -/
theorem after_result (c : Dev nD) :
    after ops (launchContents m c) (main_v67 : DevRef τ sig)
      = line (Cert.KernelIdeal.Mean.meanSites (F := Ideal) (m ((c.tc : Thread nD τ).loc main_arg1)) (m ((c.tc : Thread nD τ).loc main_arg14)) (m ((c.tc : Thread nD τ).loc main_arg15)))
          (m ((c.tc : Thread nD τ).loc main_arg0)) (m ((c.tc : Thread nD τ).loc main_arg5)) (m ((c.tc : Thread nD τ).loc main_arg7)) (m ((c.tc : Thread nD τ).loc main_arg6)) (m ((c.tc : Thread nD τ).loc main_arg10)) (m ((c.tc : Thread nD τ).loc main_arg11)) := by
  rw [ops_split, after_append]
  have hpre : after ops0 (launchContents m c) (main_v53 : DevRef τ sig)
      = preArr (Cert.KernelIdeal.Mean.meanSites (F := Ideal) (m ((c.tc : Thread nD τ).loc main_arg1)) (m ((c.tc : Thread nD τ).loc main_arg14)) (m ((c.tc : Thread nD τ).loc main_arg15))) (m ((c.tc : Thread nD τ).loc main_arg0)) (m ((c.tc : Thread nD τ).loc main_arg5)) (m ((c.tc : Thread nD τ).loc main_arg7)) (m ((c.tc : Thread nD τ).loc main_arg6)) := by
    after_results_simp <;> rfl
  have hwh : after ops0 (launchContents m c) (main_arg10 : DevRef τ sig) = (m ((c.tc : Thread nD τ).loc main_arg10)) := by
    after_results_simp <;> rfl
  have hbh : after ops0 (launchContents m c) (main_arg11 : DevRef τ sig) = (m ((c.tc : Thread nD τ).loc main_arg11)) := by
    after_results_simp <;> rfl
  generalize after ops0 (launchContents m c) = W at hpre hwh hbh ⊢
  after_results_simp
  rw [hpre, hwh, hbh]
  rfl

end Cert.ReferenceIdeal.Sites

end
-- ==== Proof.RValue.lean ====
/-
  The second program's run with its two results named: the wells' result buffer ends at `Outs.wellsOut` of the
  arguments, the sites' at `Outs.sitesOut`, and no operation of the line writes an argument, so the sixteen arguments
  end as launched (each read back through the two stretches of the line).
-/
import proofs.«144817_j29154238005713_1_alg».proof.Proof.RWells
import proofs.«144817_j29154238005713_1_alg».proof.Proof.RSites

set_option maxRecDepth 16384

noncomputable section

namespace Cert.ReferenceIdeal.Whole

open Idealize.ShloMosaic Idealize.ShloMosaic.TcCoe Idealize.SL.Sem Idealize.ShloMosaic.StableHlo
open Cert.ReferenceIdeal Cert.ReferenceIdeal.Gen Cert.ReferenceIdeal.Line
open Cert.KernelIdeal.Outs

variable (m : (ℓ : Loc nD τ sig) → Buf (Elt Ideal) ℓ) (ρ : Dev nD → PrngReg)

set_option maxHeartbeats 1000000 in
theorem kept0 (c : Dev nD) : after ops (launchContents m c) (main_arg0 : DevRef τ sig) = (m ((c.tc : Thread nD τ).loc main_arg0)) := by
  rw [ops_split, after_append]
  have h : after ops0 (launchContents m c) (main_arg0 : DevRef τ sig) = (m ((c.tc : Thread nD τ).loc main_arg0)) := by
    after_results_simp <;> rfl
  generalize after ops0 (launchContents m c) = W at h ⊢
  after_results_simp
  exact h

set_option maxHeartbeats 1000000 in
theorem kept1 (c : Dev nD) : after ops (launchContents m c) (main_arg1 : DevRef τ sig) = (m ((c.tc : Thread nD τ).loc main_arg1)) := by
  rw [ops_split, after_append]
  have h : after ops0 (launchContents m c) (main_arg1 : DevRef τ sig) = (m ((c.tc : Thread nD τ).loc main_arg1)) := by
    after_results_simp <;> rfl
  generalize after ops0 (launchContents m c) = W at h ⊢
  after_results_simp
  exact h

set_option maxHeartbeats 1000000 in
theorem kept2 (c : Dev nD) : after ops (launchContents m c) (main_arg2 : DevRef τ sig) = (m ((c.tc : Thread nD τ).loc main_arg2)) := by
  rw [ops_split, after_append]
  have h : after ops0 (launchContents m c) (main_arg2 : DevRef τ sig) = (m ((c.tc : Thread nD τ).loc main_arg2)) := by
    after_results_simp <;> rfl
  generalize after ops0 (launchContents m c) = W at h ⊢
  after_results_simp
  exact h

set_option maxHeartbeats 1000000 in
theorem kept3 (c : Dev nD) : after ops (launchContents m c) (main_arg3 : DevRef τ sig) = (m ((c.tc : Thread nD τ).loc main_arg3)) := by
  rw [ops_split, after_append]
  have h : after ops0 (launchContents m c) (main_arg3 : DevRef τ sig) = (m ((c.tc : Thread nD τ).loc main_arg3)) := by
    after_results_simp <;> rfl
  generalize after ops0 (launchContents m c) = W at h ⊢
  after_results_simp
  exact h

set_option maxHeartbeats 1000000 in
theorem kept4 (c : Dev nD) : after ops (launchContents m c) (main_arg4 : DevRef τ sig) = (m ((c.tc : Thread nD τ).loc main_arg4)) := by
  rw [ops_split, after_append]
  have h : after ops0 (launchContents m c) (main_arg4 : DevRef τ sig) = (m ((c.tc : Thread nD τ).loc main_arg4)) := by
    after_results_simp <;> rfl
  generalize after ops0 (launchContents m c) = W at h ⊢
  after_results_simp
  exact h

set_option maxHeartbeats 1000000 in
theorem kept5 (c : Dev nD) : after ops (launchContents m c) (main_arg5 : DevRef τ sig) = (m ((c.tc : Thread nD τ).loc main_arg5)) := by
  rw [ops_split, after_append]
  have h : after ops0 (launchContents m c) (main_arg5 : DevRef τ sig) = (m ((c.tc : Thread nD τ).loc main_arg5)) := by
    after_results_simp <;> rfl
  generalize after ops0 (launchContents m c) = W at h ⊢
  after_results_simp
  exact h

set_option maxHeartbeats 1000000 in
theorem kept6 (c : Dev nD) : after ops (launchContents m c) (main_arg6 : DevRef τ sig) = (m ((c.tc : Thread nD τ).loc main_arg6)) := by
  rw [ops_split, after_append]
  have h : after ops0 (launchContents m c) (main_arg6 : DevRef τ sig) = (m ((c.tc : Thread nD τ).loc main_arg6)) := by
    after_results_simp <;> rfl
  generalize after ops0 (launchContents m c) = W at h ⊢
  after_results_simp
  exact h

set_option maxHeartbeats 1000000 in
theorem kept7 (c : Dev nD) : after ops (launchContents m c) (main_arg7 : DevRef τ sig) = (m ((c.tc : Thread nD τ).loc main_arg7)) := by
  rw [ops_split, after_append]
  have h : after ops0 (launchContents m c) (main_arg7 : DevRef τ sig) = (m ((c.tc : Thread nD τ).loc main_arg7)) := by
    after_results_simp <;> rfl
  generalize after ops0 (launchContents m c) = W at h ⊢
  after_results_simp
  exact h

set_option maxHeartbeats 1000000 in
theorem kept8 (c : Dev nD) : after ops (launchContents m c) (main_arg8 : DevRef τ sig) = (m ((c.tc : Thread nD τ).loc main_arg8)) := by
  rw [ops_split, after_append]
  have h : after ops0 (launchContents m c) (main_arg8 : DevRef τ sig) = (m ((c.tc : Thread nD τ).loc main_arg8)) := by
    after_results_simp <;> rfl
  generalize after ops0 (launchContents m c) = W at h ⊢
  after_results_simp
  exact h

set_option maxHeartbeats 1000000 in
theorem kept9 (c : Dev nD) : after ops (launchContents m c) (main_arg9 : DevRef τ sig) = (m ((c.tc : Thread nD τ).loc main_arg9)) := by
  rw [ops_split, after_append]
  have h : after ops0 (launchContents m c) (main_arg9 : DevRef τ sig) = (m ((c.tc : Thread nD τ).loc main_arg9)) := by
    after_results_simp <;> rfl
  generalize after ops0 (launchContents m c) = W at h ⊢
  after_results_simp
  exact h

set_option maxHeartbeats 1000000 in
theorem kept10 (c : Dev nD) : after ops (launchContents m c) (main_arg10 : DevRef τ sig) = (m ((c.tc : Thread nD τ).loc main_arg10)) := by
  rw [ops_split, after_append]
  have h : after ops0 (launchContents m c) (main_arg10 : DevRef τ sig) = (m ((c.tc : Thread nD τ).loc main_arg10)) := by
    after_results_simp <;> rfl
  generalize after ops0 (launchContents m c) = W at h ⊢
  after_results_simp
  exact h

set_option maxHeartbeats 1000000 in
theorem kept11 (c : Dev nD) : after ops (launchContents m c) (main_arg11 : DevRef τ sig) = (m ((c.tc : Thread nD τ).loc main_arg11)) := by
  rw [ops_split, after_append]
  have h : after ops0 (launchContents m c) (main_arg11 : DevRef τ sig) = (m ((c.tc : Thread nD τ).loc main_arg11)) := by
    after_results_simp <;> rfl
  generalize after ops0 (launchContents m c) = W at h ⊢
  after_results_simp
  exact h

set_option maxHeartbeats 1000000 in
theorem kept12 (c : Dev nD) : after ops (launchContents m c) (main_arg12 : DevRef τ sig) = (m ((c.tc : Thread nD τ).loc main_arg12)) := by
  rw [ops_split, after_append]
  have h : after ops0 (launchContents m c) (main_arg12 : DevRef τ sig) = (m ((c.tc : Thread nD τ).loc main_arg12)) := by
    after_results_simp <;> rfl
  generalize after ops0 (launchContents m c) = W at h ⊢
  after_results_simp
  exact h

set_option maxHeartbeats 1000000 in
theorem kept13 (c : Dev nD) : after ops (launchContents m c) (main_arg13 : DevRef τ sig) = (m ((c.tc : Thread nD τ).loc main_arg13)) := by
  rw [ops_split, after_append]
  have h : after ops0 (launchContents m c) (main_arg13 : DevRef τ sig) = (m ((c.tc : Thread nD τ).loc main_arg13)) := by
    after_results_simp <;> rfl
  generalize after ops0 (launchContents m c) = W at h ⊢
  after_results_simp
  exact h

set_option maxHeartbeats 1000000 in
theorem kept14 (c : Dev nD) : after ops (launchContents m c) (main_arg14 : DevRef τ sig) = (m ((c.tc : Thread nD τ).loc main_arg14)) := by
  rw [ops_split, after_append]
  have h : after ops0 (launchContents m c) (main_arg14 : DevRef τ sig) = (m ((c.tc : Thread nD τ).loc main_arg14)) := by
    after_results_simp <;> rfl
  generalize after ops0 (launchContents m c) = W at h ⊢
  after_results_simp
  exact h

set_option maxHeartbeats 1000000 in
theorem kept15 (c : Dev nD) : after ops (launchContents m c) (main_arg15 : DevRef τ sig) = (m ((c.tc : Thread nD τ).loc main_arg15)) := by
  rw [ops_split, after_append]
  have h : after ops0 (launchContents m c) (main_arg15 : DevRef τ sig) = (m ((c.tc : Thread nD τ).loc main_arg15)) := by
    after_results_simp <;> rfl
  generalize after ops0 (launchContents m c) = W at h ⊢
  after_results_simp
  exact h

/-- Every weakly fair execution of the second program terminates without a fault; its two results end at the two columns
    of the arguments and the arguments end as launched. -/
theorem run : θ_run defs (onTc (τ := τ) (main (F := Ideal))) ⟨m, fun _ => 0, ρ⟩ (fun r => ∀ c : Dev nD,
      r.2.mem ((c.tc : Thread nD τ).loc main_v61) = wellsOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v67) = sitesOut (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg6)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c main_v61).trans ((Wells.after_result m c).trans (Wells.line_eq _ _ _ _ _ _ _)),
     (h c main_v67).trans ((Sites.after_result m c).trans (Sites.line_eq _ _ _ _ _ _ _)),
     (h c main_arg0).trans (kept0 m c),
     (h c main_arg1).trans (kept1 m c),
     (h c main_arg2).trans (kept2 m c),
     (h c main_arg3).trans (kept3 m c),
     (h c main_arg4).trans (kept4 m c),
     (h c main_arg5).trans (kept5 m c),
     (h c main_arg6).trans (kept6 m c),
     (h c main_arg7).trans (kept7 m c),
     (h c main_arg8).trans (kept8 m c),
     (h c main_arg9).trans (kept9 m c),
     (h c main_arg10).trans (kept10 m c),
     (h c main_arg11).trans (kept11 m c),
     (h c main_arg12).trans (kept12 m c),
     (h c main_arg13).trans (kept13 m c),
     (h c main_arg14).trans (kept14 m c),
     (h c main_arg15).trans (kept15 m c)⟩)
    (run_all m ρ)

end Cert.ReferenceIdeal.Whole

end
-- ==== Proof.lean ====
/-
  The certificate of the graph message-passing head against its plain reference, over the extended reals.

  Both programs first aggregate, for each of the two edge types, the mean of the source nodes' features per destination
  node, with the same host operations (carried through as one function, `Mean.meanWells` / `Mean.meanSites`). The first
  program then runs, per edge type, one tiled launch over row blocks of 2000 destination nodes: two matrix products
  into zero accumulators, the bias, a rectifier, a third product against the head vector, the head bias and a leaky
  rectifier; its host code only transposes, reshapes and changes the float format of the weights. The second program does
  the same with host matrix products, adding the bias before the root term, comparing with "at least zero" and
  multiplying by the slope on the left. Over the extended reals these are one function of the sixteen arguments
  (`Outs.wellsOut`, `Outs.sitesOut`): addition and multiplication are commutative and associative there, a change of
  format is the identity, a product into a zero accumulator is the plain sum, and at zero both branches of the leaky
  rectifier give zero. Finiteness of the inputs is never used.

  The three frames: the two kernel programs' are the generated ones; the reference's is its run with the results dropped.
  No rewrite was recorded between the first program and its idealization, so that conjunct is trivial.
-/
import proofs.«144817_j29154238005713_1_alg».proof.Defs
import proofs.«144817_j29154238005713_1_alg».proof.Proof.Gen.Kernel
import proofs.«144817_j29154238005713_1_alg».proof.Proof.Gen.Kernel.Skeleton
import proofs.«144817_j29154238005713_1_alg».proof.Proof.Gen.Kernel.Launch
import proofs.«144817_j29154238005713_1_alg».proof.Proof.Gen.Kernel.Points
import proofs.«144817_j29154238005713_1_alg».proof.Proof.Gen.Kernel.Frame
import proofs.«144817_j29154238005713_1_alg».proof.Proof.Gen.KernelIdeal
import proofs.«144817_j29154238005713_1_alg».proof.Proof.Gen.KernelIdeal.Skeleton
import proofs.«144817_j29154238005713_1_alg».proof.Proof.Gen.KernelIdeal.Launch
import proofs.«144817_j29154238005713_1_alg».proof.Proof.Gen.KernelIdeal.Points
import proofs.«144817_j29154238005713_1_alg».proof.Proof.Gen.KernelIdeal.Frame
import proofs.«144817_j29154238005713_1_alg».proof.Proof.Gen.ReferenceIdeal
import proofs.«144817_j29154238005713_1_alg».proof.Proof.Gen.Pre_finite_inputs
import proofs.«144817_j29154238005713_1_alg».proof.Proof.KValue
import proofs.«144817_j29154238005713_1_alg».proof.Proof.RValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Whole.run m ρ)

theorem preserves : Cert.preserves_Kernel_KernelIdeal := trivial

/-- Both programs end with the two columns of the specification at their arguments, and the arguments agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun r h c => ?_) (Cert.ReferenceIdeal.Whole.run m' ρ')
  obtain ⟨hw, hs, hrest⟩ := h c
  obtain ⟨a0, a1, a2, a3, a4, a5, a6, a7, a8, a9, a10, a11, a12, a13, a14, a15⟩ := hagree c
  refine ⟨?_, ?_, hrest⟩
  · rw [hw, a0, a1, a2, a3, a4, a8, a9, a12, a13]
  · rw [hs, a0, a1, a5, a6, a7, a10, a11, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
